-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S3x128x128 : Shape := ⟨3, ![3, 128, 128]⟩
abbrev S3x128 : Shape := ⟨2, ![3, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : IVec S1x600000 32 := (extractStridedSlice S1x600000 ![0, 0] · slices_S2x600000_S1x600000_0_0) main_arg1
  let main_v20 : IVec S600000 32 := shapeCast S600000 main_v19 shapeCasts_S1x600000_S600000
  let main_c_6 : IVec S_ 32 := constantI S_ 32 0#32
  let main_v21 : IVec S600000 32 := broadcastInDim S600000 ![] bcast_S_S600000 main_c_6
  let main_v22 : IVec S600000 1 := cmpi .sge main_v20 main_v21
  let main_c_7 : IVec S_ 1 := constantI S_ 1 1#1
  let main_v23 : IVec S_ 1 := (fun x v => Host.reduce IntOp.andi x v reducesTo_S600000_S_d0 h_S_) main_v22 main_c_7
  let main_v24 : IVec S_ 1 := andi main_v18 main_v23
  let main_v25 : IVec S1x600000 32 := (extractStridedSlice S1x600000 ![0, 0] · slices_S2x600000_S1x600000_0_0) main_arg1
  let main_v26 : IVec S600000 32 := shapeCast S600000 main_v25 shapeCasts_S1x600000_S600000
  let main_c_8 : IVec S_ 32 := constantI S_ 32 50000#32
  let main_v27 : IVec S600000 32 := broadcastInDim S600000 ![] bcast_S_S600000 main_c_8
  let main_v28 : IVec S600000 1 := cmpi .slt main_v26 main_v27
  let main_c_9 : IVec S_ 1 := constantI S_ 1 1#1
  let main_v29 : IVec S_ 1 := (fun x v => Host.reduce IntOp.andi x v reducesTo_S600000_S_d0 h_S_) main_v28 main_c_9
  let main_v30 : IVec S_ 1 := andi main_v24 main_v29
  main_v30

def fn {F : FTy → Type} [FloatOps F] (main_arg0 : FVec F S50000x128 .f32) (main_arg1 : IVec S2x600000 32) (main_arg2 : FVec F S600000x128 .f32) (main_arg3 : FVec F S3x128x128 .f32) (main_arg4 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S5000x128 : Shape := ⟨2, ![5000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S6000x128 : Shape := ⟨2, ![6000, 128]⟩
abbrev S1x128 : Shape := ⟨2, ![1, 128]⟩
abbrev S128 : Shape := ⟨1, ![128]⟩

abbrev nBuf : Space → Nat
  | .hbm => 114
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S3x128x128, .f32⟩
  | .hbm, ⟨4, _⟩ => ⟨S3x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S1x128x128, .f32⟩
  | .hbm, ⟨10, _⟩ => ⟨S128x128, .f32⟩
  | .hbm, ⟨11, _⟩ => ⟨S50000x128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S1, .i32⟩
  | .hbm, ⟨21, _⟩ => ⟨S_, .i32⟩
  | .hbm, ⟨22, _⟩ => ⟨S600000x1, .i32⟩
  | .hbm, ⟨23, _⟩ => ⟨S600000x1, .i1⟩
  | .hbm, ⟨24, _⟩ => ⟨S1x1, .i32⟩
  | .hbm, ⟨25, _⟩ => ⟨S600000x1, .i32⟩
  | .hbm, ⟨26, _⟩ => ⟨S600000x1, .i1⟩
  | .hbm, ⟨27, _⟩ => ⟨S600000x1, .i1⟩
  | .hbm, ⟨28, _⟩ => ⟨S_, .i1⟩
  | .hbm, ⟨29, _⟩ => ⟨S600000, .i1⟩
  | .hbm, ⟨30, _⟩ => ⟨S600000x128, .f32⟩
  | .hbm, ⟨31, _⟩ => ⟨S600000x128, .i1⟩
  | .hbm, ⟨32, _⟩ => ⟨S_, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S50000x128, .f32⟩
  | .hbm, ⟨44, _⟩ => ⟨S1x128x128, .f32⟩
  | .hbm, ⟨45, _⟩ => ⟨S128x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S1, .i32⟩
  | .hbm, ⟨56, _⟩ => ⟨S_, .i32⟩
  | .hbm, ⟨57, _⟩ => ⟨S600000x1, .i32⟩
  | .hbm, ⟨58, _⟩ => ⟨S600000x1, .i1⟩
  | .hbm, ⟨59, _⟩ => ⟨S1x1, .i32⟩
  | .hbm, ⟨60, _⟩ => ⟨S600000x1, .i32⟩
  | .hbm, ⟨61, _⟩ => ⟨S600000x1, .i1⟩
  | .hbm, ⟨62, _⟩ => ⟨S600000x1, .i1⟩
  | .hbm, ⟨63, _⟩ => ⟨S_, .i1⟩
  | .hbm, ⟨64, _⟩ => ⟨S600000, .i1⟩
  | .hbm, ⟨65, _⟩ => ⟨S600000x128, .f32⟩
  | .hbm, ⟨66, _⟩ => ⟨S600000x128, .i1⟩
  | .hbm, ⟨67, _⟩ => ⟨S_, .f32⟩
  | .hbm, ⟨68, _⟩ => ⟨S600000x128, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S50000x128, .f32⟩
  | .hbm, ⟨79, _⟩ => ⟨S1x128x128, .f32⟩
  | .hbm, ⟨80, _⟩ => ⟨S128x128, .f32⟩
  | .hbm, ⟨81, _⟩ => ⟨S50000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S1, .i32⟩
  | .hbm, ⟨91, _⟩ => ⟨S_, .i32⟩
  | .hbm, ⟨92, _⟩ => ⟨S600000x1, .i32⟩
  | .hbm, ⟨93, _⟩ => ⟨S600000x1, .i1⟩
  | .hbm, ⟨94, _⟩ => ⟨S1x1, .i32⟩
  | .hbm, ⟨95, _⟩ => ⟨S600000x1, .i32⟩
  | .hbm, ⟨96, _⟩ => ⟨S600000x1, .i1⟩
  | .hbm, ⟨97, _⟩ => ⟨S600000x1, .i1⟩
  | .hbm, ⟨98, _⟩ => ⟨S_, .i1⟩
  | .hbm, ⟨99, _⟩ => ⟨S600000, .i1⟩
  | .hbm, ⟨100, _⟩ => ⟨S600000x128, .f32⟩
  | .hbm, ⟨101, _⟩ => ⟨S600000x128, .i1⟩
  | .hbm, ⟨102, _⟩ => ⟨S_, .f32⟩
  | .hbm, ⟨103, _⟩ => ⟨S600000x128, .f32⟩
  | .hbm, ⟨104, _⟩ => ⟨S600000x128, .f32⟩
  | .hbm, ⟨105, _⟩ => ⟨S600000x128, .f32⟩
  | .hbm, ⟨106, _⟩ => ⟨S_, .f32⟩
  | .hbm, ⟨107, _⟩ => ⟨S50000x128, .f32⟩
  | .hbm, ⟨108, _⟩ => ⟨S600000x1, .i32⟩
  | .hbm, ⟨109, _⟩ => ⟨S50000x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S6000x128, .f32⟩
  | .local _ .vmem, ⟨24, _⟩ => ⟨S6000x128, .f32⟩
  | .local _ .vmem, ⟨25, _⟩ => ⟨S6000x128, .f32⟩
  | .local _ .vmem, ⟨26, _⟩ => ⟨S6000x128, .f32⟩
  | .local _ .vmem, ⟨27, _⟩ => ⟨S6000x128, .f32⟩
  | .local _ .vmem, ⟨28, _⟩ => ⟨S6000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S6000x128, .f32⟩
  | .local _ .vmem, ⟨42, _⟩ => ⟨S6000x128, .f32⟩
  | .local _ .vmem, ⟨43, _⟩ => ⟨S6000x128, .f32⟩
  | .local _ .vmem, ⟨44, _⟩ => ⟨S6000x128, .f32⟩
  | .local _ .vmem, ⟨45, _⟩ => ⟨S6000x128, .f32⟩
  | .local _ .vmem, ⟨46, _⟩ => ⟨S6000x128, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v19 : Ref sig .tc := ⟨.hbm, 69, rfl⟩
abbrev main_v20 : Ref sig .tc := ⟨.hbm, 70, rfl⟩
abbrev main_cst_0 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v31 : Ref sig .tc := ⟨.hbm, 104, rfl⟩
abbrev main_v32 : Ref sig .tc := ⟨.hbm, 105, rfl⟩
abbrev main_cst_1 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg2_1 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem2_1 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S600000x128.size a
  hwx1_2 : ∀ i : grid1.Coords, EltTy.bits .f32 = 32 ∨ (Rect.block (s := S600000x128) S6000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S600000x128.size a
  hwx4_1 : ∀ i : grid4.Coords, EltTy.bits .f32 = 32 ∨ (Rect.block (s := S600000x128) S6000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x128.size a ≤ S600000x128.size a
  hwx4_2 : ∀ i : grid4.Coords, EltTy.bits .f32 = 32 ∨ (Rect.block (s := S600000x128) S6000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x128.size a ≤ S600000x128.size a
  hwx7_0 : ∀ i : grid7.Coords, EltTy.bits .f32 = 32 ∨ (Rect.block (s := S600000x128) S6000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x128.size a ≤ S600000x128.size a
  hwx7_1 : ∀ i : grid7.Coords, EltTy.bits .f32 = 32 ∨ (Rect.block (s := S600000x128) S6000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x128.size a ≤ S600000x128.size a
  hwx7_2 : ∀ i : grid7.Coords, EltTy.bits .f32 = 32 ∨ (Rect.block (s := S600000x128) S6000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S6000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v19) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S6000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v23) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v27) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v27) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v30) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v31) S6000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg2) S6000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v32) S6000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v35) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v38) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v27) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v39) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S_ : Shape := ⟨0, ![]⟩
abbrev S600000x1 : Shape := ⟨2, ![600000, 1]⟩
abbrev S1x128 : Shape := ⟨2, ![1, 128]⟩
abbrev S128 : Shape := ⟨1, ![128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S3x128x128, .f32⟩
  | .hbm, ⟨4, _⟩ => ⟨S3x128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S1x128x128, .f32⟩
  | .hbm, ⟨10, _⟩ => ⟨S128x128, .f32⟩
  | .hbm, ⟨11, _⟩ => ⟨S50000x128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S600000x128, .f32⟩
  | .hbm, ⟨82, _⟩ => ⟨S600000x128, .f32⟩
  | .hbm, ⟨83, _⟩ => ⟨S_, .f32⟩
  | .hbm, ⟨84, _⟩ => ⟨S50000x128, .f32⟩
  | .hbm, ⟨85, _⟩ => ⟨S600000x1, .i32⟩
  | .hbm, ⟨86, _⟩ => ⟨S50000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_cst : Ref sig .tc := ⟨.hbm, 34, rfl⟩
abbrev main_call1_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_cst : Ref sig .tc := ⟨.hbm, 51, rfl⟩
abbrev main_call2_v0 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call3_cst : Ref sig .tc := ⟨.hbm, 63, rfl⟩
abbrev main_call3_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_4 : Ref sig .tc := ⟨.hbm, 70, rfl⟩
abbrev main_v51 : Ref sig .tc := ⟨.hbm, 71, rfl⟩
abbrev main_v52 : Ref sig .tc := ⟨.hbm, 72, rfl⟩
abbrev main_c_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call4_cst : Ref sig .tc := ⟨.hbm, 80, rfl⟩
abbrev main_call4_v0 : Ref sig .tc := ⟨.hbm, 81, rfl⟩
abbrev main_v59 : Ref sig .tc := ⟨.hbm, 82, rfl⟩
abbrev main_cst_6 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S3x128x128_S1x128x128_0_0_0 : S3x128x128.Slices ![0, 0, 0] S1x128x128
  shapeCasts_S1x128x128_S128x128 : S1x128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Take.lean ====
/-
  The filled row gather under in-range indices.

  The program reads row `s e` of a table of 50000 rows for each of 600000 positions `e`, after two guards: a negative
  index is first moved up by the table's height, and a position whose moved index falls outside `0 … 49999` receives
  a fill value instead of a row. For an index with `0 ≤ s e < 50000` neither guard acts: the index is not negative, so
  it is not moved, and it passes the range test, so the mask that chooses between the row and the fill is set at every
  position. The guarded gather is then the plain gather at the same index column.
-/
import proofs.«424701_j75024488726867_1_alg».proof.Proof.Gen.KernelIdeal
import Idealize.ShloMosaic.Lib.ValueIdx

noncomputable section

namespace Cert.KernelIdeal.Take

open Idealize.ShloMosaic Cert.KernelIdeal Cert.KernelIdeal.Gen

/-! ## Words -/

theorem ofBool_eq_one_iff (b : Bool) : BitVec.ofBool b = 1#1 ↔ b = true := by cases b <;> decide

theorem toInt_zero32 : (0#32 : BitVec 32).toInt = 0 := by decide
theorem toInt_50000 : (50000#32 : BitVec 32).toInt = 50000 := by decide
theorem toInt_49999 : (49999#32 : BitVec 32).toInt = 49999 := by decide

/-- The signed comparisons of two words compare their integer values. -/
theorem sge_iff (s b : BitVec 32) : IntOp.cmpi .sge s b = 1#1 ↔ b.toInt ≤ s.toInt := by
  unfold IntOp.cmpi
  simp only [ofBool_eq_one_iff, BitVec.sle, decide_eq_true_eq]

theorem slt_iff (s b : BitVec 32) : IntOp.cmpi .slt s b = 1#1 ↔ s.toInt < b.toInt := by
  unfold IntOp.cmpi
  simp only [ofBool_eq_one_iff, BitVec.slt, decide_eq_true_eq]

theorem sle_iff (s b : BitVec 32) : IntOp.cmpi .sle s b = 1#1 ↔ s.toInt ≤ b.toInt := by
  unfold IntOp.cmpi
  simp only [ofBool_eq_one_iff, BitVec.sle, decide_eq_true_eq]

/-- A non-negative index is not moved: the choice "if negative then index + 50000 else index" is the index. -/
theorem wrap_id (s : BitVec 32) (hlo : IntOp.cmpi .sge s 0#32 = 1#1) :
    Scalar.select (IntOp.cmpi .slt s 0#32) (IntOp.addi s 50000#32) s = s := by
  have h0 : IntOp.cmpi .slt s 0#32 = 0#1 := by
    refine ValueIdx.eq_zero_of_ne_one fun h => ?_
    have h1 := (slt_iff s 0#32).mp h
    have h2 := (sge_iff s 0#32).mp hlo
    omega
  rw [h0, ValueIdx.select_zero]

/-- An index in `0 … 49999` passes both halves of the range test. -/
theorem range_ok (s : BitVec 32) (hlo : IntOp.cmpi .sge s 0#32 = 1#1) (hhi : IntOp.cmpi .slt s 50000#32 = 1#1) :
    IntOp.andi (IntOp.cmpi .sge s 0#32) (IntOp.cmpi .sle s 49999#32) = 1#1 := by
  have h3 : IntOp.cmpi .sle s 49999#32 = 1#1 := by
    rw [sle_iff, toInt_49999]
    have := (slt_iff s 50000#32).mp hhi
    rw [toInt_50000] at this
    omega
  rw [hlo, h3]; decide

/-- A fold by `and` that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]; decide

/-! ## The index column and the guarded gather -/

/-- The source node of each edge: the first row of the edge list, as a vector of 600000 indices. -/
def src (ei : IVec S2x600000 32) : IVec S600000 32 :=
  shapeCast S600000 (extractStridedSlice S1x600000 ![0, 0] ei slices_S2x600000_S1x600000_0_0) shapeCasts_S1x600000_S600000

/-- The index column the gather reads: each index moved up by 50000 if negative, laid out as a [600000, 1] column. -/
def idxCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The mask of the positions whose moved index lies in `0 … 49999`, one bit per position, spread along each row. -/
def inRange (s : IVec S600000 32) : IVec S600000x128 1 :=
  broadcastInDim S600000x128 ![0] bcast_S600000_S600000x128_0
    (Host.reduce IntOp.andi
      (andi (cmpi .sge (idxCol s) (broadcastInDim S600000x1 ![] bcast_S_S600000x1 (constantI S_ 32 0#32)))
        (cmpi .sle (idxCol s) (broadcastInDim S600000x1 ![0, 1] bcast_S1x1_S600000x1_0_1
          (broadcastInDim S1x1 ![1] bcast_S1_S1x1_1 (constantI S1 32 49999#32)))))
      (constantI S_ 1 1#1) reducesTo_S600000x1_S600000_d1 h_S_)

/-- With every index in `0 … 49999` the moved index at each position is the index itself. -/
theorem idxCol_apply (s : IVec S600000 32) (hlo : ∀ e, IntOp.cmpi .sge (s e) 0#32 = 1#1) (k : S600000x1.Idx) :
    ∃ e, idxCol s k = s e := by
  dsimp only [idxCol, broadcastInDim, select, cmpi, addi, constantI]
  exact ⟨_, wrap_id _ (hlo _)⟩

/-- With every index in `0 … 49999` the mask is set everywhere. -/
theorem inRange_eq_one (s : IVec S600000 32) (hlo : ∀ e, IntOp.cmpi .sge (s e) 0#32 = 1#1)
    (hhi : ∀ e, IntOp.cmpi .slt (s e) 50000#32 = 1#1) (i : S600000x128.Idx) : inRange s i = 1#1 := by
  unfold inRange
  simp only [broadcastInDim]
  unfold Host.reduce
  refine foldl_andi_one _ _ _ rfl fun n _ => ?_
  obtain ⟨e, he⟩ := idxCol_apply s hlo (S600000x1.rowMajor.symm n)
  simp only [andi, cmpi, broadcastInDim, constantI]
  rw [he]
  exact range_ok _ (hlo e) (hhi e)

/-- THE GUARDED GATHER IS THE PLAIN ONE: with every index in `0 … 49999`, choosing by the mask between the gathered
    rows and any fill is the gathered rows. -/
theorem select_gather {α : Type} (s : IVec S600000 32) (hlo : ∀ e, IntOp.cmpi .sge (s e) 0#32 = 1#1)
    (hhi : ∀ e, IntOp.cmpi .slt (s e) 50000#32 = 1#1) (rows fill : S600000x128.Idx → α) :
    select (inRange s) rows fill = rows := by
  funext i
  show Scalar.select (inRange s i) (rows i) (fill i) = rows i
  rw [inRange_eq_one s hlo hhi i, ValueIdx.select_one]

end Cert.KernelIdeal.Take

end
-- ==== Proof.PreRange.lean ====
/-
  What the precondition says of the source indices.

  The precondition is a conjunction of six tests, each an "all elements" reduction that must come out true: four say
  that a float input is finite, and the last two say that every entry of the first row of the edge list — the source
  node of each edge — is at least 0 and below 50000, the number of nodes. A conjunction of bits that is 1 has every
  conjunct 1, and an all-elements reduction by `and` that is 1 met only 1s; so each source index passes both comparisons.
-/
import proofs.«424701_j75024488726867_1_alg».proof.Defs
import proofs.«424701_j75024488726867_1_alg».proof.Proof.Take
import proofs.«424701_j75024488726867_1_alg».proof.Proof.Gen.Pre_finite_inputs
import Idealize.ShloMosaic.Lib.ReduceAll
import Idealize.ShloMosaic.Lib.ValueIdx

noncomputable section

namespace Cert.KernelIdeal.PreRange

open Idealize.ShloMosaic Idealize.SL.Sem Cert.KernelIdeal Cert.KernelIdeal.Gen

instance : Subsingleton S_.Idx := ⟨fun a b => funext fun d => d.elim0⟩

open Cert.KernelIdeal.Take (src)

/-- Under the precondition every source index is at least 0 and below 50000, as the signed comparisons read them. -/
theorem src_range (m : (ℓ : Loc nD τ sig) → Buf (Elt Ideal) ℓ) (hpre : Cert.Pre_KernelIdeal m) (c : Dev nD) :
    (∀ e, IntOp.cmpi .sge (src (m ((c.tc : Thread nD τ).loc main_arg1)) e) 0#32 = 1#1)
    ∧ (∀ e, IntOp.cmpi .slt (src (m ((c.tc : Thread nD τ).loc main_arg1)) e) 50000#32 = 1#1) := by
  have h := congrFun (hpre c) ValueIdx.ix0
  dsimp only [Cert.Pre_finite_inputs.fn, Cert.Pre_finite_inputs.fn_part1] at h
  obtain ⟨h24, h29⟩ := IntOp.andi_eq_one.1 h
  obtain ⟨-, h23⟩ := IntOp.andi_eq_one.1 h24
  exact ⟨fun e => Host.reduce_andi_all _ _ _ _ _ h23 e, fun e => Host.reduce_andi_all _ _ _ _ _ h29 e⟩

end Cert.KernelIdeal.PreRange

end
-- ==== Proof.Spec.lean ====
/-
  The layer's arithmetic, index by index, over the extended reals.

  One layer of the network takes the node features `h` (50000 rows of 128), multiplies them by a 128 × 128 weight,
  reads for every edge the product's row at the edge's source node, adds the edge's own features and clips at zero
  (the message), adds the messages up per destination node, and then adds the bias row, clips at zero (the last layer
  does not) and adds `h` back. The four pointwise steps are named here as functions of whole arrays read at an index;
  the row gather and the per-node sum are operations both programs share and are never opened.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![50000, 128]⟩
abbrev Edges : Shape := ⟨2, ![600000, 128]⟩
abbrev Weight : Shape := ⟨2, ![128, 128]⟩
abbrev Row : Shape := ⟨2, ![1, 128]⟩

/-- The product of the features with the weight: entry (r, j) is the sum over k of feature (r, k) times weight (k, j). -/
def mm (h : Nodes.Idx → EReal) (w : Weight.Idx → EReal) : Nodes.Idx → EReal :=
  fun i => ∑ k : Fin 128, h (ix2 (i 0) k) * w (ix2 k (i 1))

/-- The message of an edge: the gathered row plus the edge's features, clipped at zero. -/
def msg (xs ea : Edges.Idx → EReal) : Edges.Idx → EReal :=
  fun i => max (xs i + ea i) 0

/-- A middle layer's update: the summed messages plus the bias row, clipped at zero, plus the layer's input. -/
def updRelu (hs : Nodes.Idx → EReal) (b : Row.Idx → EReal) (h : Nodes.Idx → EReal) : Nodes.Idx → EReal :=
  fun i => max (hs i + b (ix2 0 (i 1))) 0 + h i

/-- The last layer's update: the same without the clip. -/
def updLin (hs : Nodes.Idx → EReal) (b : Row.Idx → EReal) (h : Nodes.Idx → EReal) : Nodes.Idx → EReal :=
  fun i => hs i + b (ix2 0 (i 1)) + h i

end Cert.Spec

end
-- ==== Proof.Layer.lean ====
/-
  One layer, and the three layers, as functions of the five inputs.

  A layer reads its weight (one 128 × 128 slice of the weight stack) and its bias (one row of the bias table), takes the
  product of the node features with the weight, gathers the product's rows at the edges' source nodes, forms the
  messages, sums them into their destination nodes, and updates. The gather and the per-node sum are the host
  operations both programs apply; they stay closed here. The network is three layers, the last without the clip.
-/
import proofs.«424701_j75024488726867_1_alg».proof.Proof.Spec
import proofs.«424701_j75024488726867_1_alg».proof.Proof.Take

noncomputable section

namespace Cert.KernelIdeal.Layer

open Idealize.ShloMosaic Cert.KernelIdeal Cert.KernelIdeal.Gen Cert.KernelIdeal.Take

/-- The destination node of each edge: the second row of the edge list, as a vector of 600000 indices. -/
def dst (ei : IVec S2x600000 32) : IVec S600000 32 :=
  shapeCast S600000 (extractStridedSlice S1x600000 ![1, 0] ei slices_S2x600000_S1x600000_1_0) shapeCasts_S1x600000_S600000

/-- The destinations as the [600000, 1] index column the per-node sum reads. -/
def dstCol (ei : IVec S2x600000 32) : IVec S600000x1 32 :=
  broadcastInDim S600000x1 ![0] bcast_S600000_S600000x1_0 (dst ei)

/-- The three layers' weights: the slices of the weight stack. -/
def weight0 (W : FVec Ideal S3x128x128 .f32) : FVec Ideal S128x128 .f32 :=
  shapeCast S128x128 (extractStridedSlice S1x128x128 ![0, 0, 0] W slices_S3x128x128_S1x128x128_0_0_0) shapeCasts_S1x128x128_S128x128
def weight1 (W : FVec Ideal S3x128x128 .f32) : FVec Ideal S128x128 .f32 :=
  shapeCast S128x128 (extractStridedSlice S1x128x128 ![1, 0, 0] W slices_S3x128x128_S1x128x128_1_0_0) shapeCasts_S1x128x128_S128x128
def weight2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- The three layers' bias rows: the rows of the bias table, each as a [1, 128] array. -/
def bias0 (b : FVec Ideal S3x128 .f32) : FVec Ideal S1x128 .f32 :=
  broadcastInDim S1x128 ![1] bcast_S128_S1x128_1 (shapeCast S128 (extractStridedSlice S1x128 ![0, 0] b slices_S3x128_S1x128_0_0) shapeCasts_S1x128_S128)
def bias1 (b : FVec Ideal S3x128 .f32) : FVec Ideal S1x128 .f32 :=
  broadcastInDim S1x128 ![1] bcast_S128_S1x128_1 (shapeCast S128 (extractStridedSlice S1x128 ![1, 0] b slices_S3x128_S1x128_1_0) shapeCasts_S1x128_S128)
def bias2 (b : FVec Ideal S3x128 .f32) : FVec Ideal S1x128 .f32 :=
  broadcastInDim S1x128 ![1] bcast_S128_S1x128_1 (shapeCast S128 (extractStridedSlice S1x128 ![2, 0] b slices_S3x128_S1x128_2_0) shapeCasts_S1x128_S128)

/-- The rows of a node array at the edges' source nodes. -/
def rows (ei : IVec S2x600000 32) (x : FVec Ideal S50000x128 .f32) : FVec Ideal S600000x128 .f32 :=
  Host.gather gather_S50000x128_S600000x1_S600000x128_1_0_n_n_0_1_1128 x (idxCol (src ei))

/-- The edge array summed into the edges' destination nodes, from zero. -/
def agg (ei : IVec S2x600000 32) (msgs : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32)) (dstCol ei) msgs

/-- A middle layer. -/
def layerRelu (h : FVec Ideal S50000x128 .f32) (ei : IVec S2x600000 32) (ea : FVec Ideal S600000x128 .f32)
    (w : FVec Ideal S128x128 .f32) (bl : FVec Ideal S1x128 .f32) : FVec Ideal S50000x128 .f32 :=
  Cert.Spec.updRelu (agg ei (Cert.Spec.msg (rows ei (Cert.Spec.mm h w)) ea)) bl h

/-- The last layer. -/
def layerLin (h : FVec Ideal S50000x128 .f32) (ei : IVec S2x600000 32) (ea : FVec Ideal S600000x128 .f32)
    (w : FVec Ideal S128x128 .f32) (bl : FVec Ideal S1x128 .f32) : FVec Ideal S50000x128 .f32 :=
  Cert.Spec.updLin (agg ei (Cert.Spec.msg (rows ei (Cert.Spec.mm h w)) ea)) bl h

/-- The network: two middle layers and the last one. -/
def out (z : FVec Ideal S50000x128 .f32) (ei : IVec S2x600000 32) (ea : FVec Ideal S600000x128 .f32)
    (W : FVec Ideal S3x128x128 .f32) (b : FVec Ideal S3x128 .f32) : FVec Ideal S50000x128 .f32 :=
  layerLin (layerRelu (layerRelu z ei ea (weight0 W) (bias0 b)) ei ea (weight1 W) (bias1 b)) ei ea (weight2 W) (bias2 b)

end Cert.KernelIdeal.Layer

end
-- ==== Proof.WalkBase.lean ====
/-
  The edge list's two rows after the first stretch of host operations.

  The program begins by slicing the edge list into its row of source nodes and its row of destination nodes. Both rows
  are read again and again by later stretches; here they are named at the boundary where they are made.
-/
import proofs.«424701_j75024488726867_1_alg».proof.Proof.Gen.KernelIdeal.Frame
import proofs.«424701_j75024488726867_1_alg».proof.Proof.Layer
import Idealize.ShloMosaic.Lib.StableHlo.Run

set_option maxRecDepth 16384

noncomputable section

namespace Cert.KernelIdeal.WalkBase

open Idealize.ShloMosaic Idealize.ShloMosaic.TcCoe Idealize.SL.Sem Idealize.ShloMosaic.StableHlo
open Cert.KernelIdeal Cert.KernelIdeal.Gen Cert.KernelIdeal.Layer Cert.KernelIdeal.Take

variable (m : (ℓ : Loc nD τ sig) → Buf (Elt Ideal) ℓ) (ρ : Dev nD → PrngReg)

/-- The source row at the first boundary. -/
theorem src_at1 (c : Dev nD) :
    W1 m ρ c (Proc.devRef .tc main_v1) = src (m ((c : Thread nD τ).loc main_arg1)) := by
  show StableHlo.after hostOps0 (W0 m ρ c) (Proc.devRef .tc main_v1) = _
  after_results
  rfl

/-- The destination row at the first boundary. -/
theorem dst_at1 (c : Dev nD) :
    W1 m ρ c (Proc.devRef .tc main_v3) = dst (m ((c : Thread nD τ).loc main_arg1)) := by
  show StableHlo.after hostOps0 (W0 m ρ c) (Proc.devRef .tc main_v3) = _
  after_results
  rfl

end Cert.KernelIdeal.WalkBase

end
-- ==== Proof.Region0.lean ====
/-
  A layer's product, from blocks to the whole array.

  The region runs over ten points. At point `t` it reads rows `5000 t … 5000 t + 4999` of the feature array (50000 rows of
  128) and the whole 128 × 128 weight, and writes rows `5000 t …` of the product array. Over the extended reals the body's
  output block at (p, q) is the sum over k of feature-block (p, k) times weight-block (k, q): the contraction's index is
  its one coordinate, the left operand is read at (p, k) and the right at (k, q), the accumulator is the zero word, and
  the change of format before the contraction is the identity there. The feature block's row p is row `5000 t + p` of the
  array and the weight's block is the weight, so what point `t` writes back is block `t` of the array's product with the
  weight. Every row r lies in the block of point `r / 5000`, and every point writes its block back, so the product array
  ends as that product everywhere.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Product0

open Idealize.ShloMosaic.ValueIdx

/-- The zero offsets of a whole-block access, as the constant function. -/
theorem zero_offsets : (![0, 0] : Fin 2 → Nat) = fun _ => 0 := funext fun a => by fin_cases a <;> rfl

/-! ## The product at an index -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction's coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction's coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's output block at (p, q): the sum over k of the first block at (p, k) times the second at (k, q). The
    accumulator is the zero word, and narrowing the format and recasting a block to its own shape change nothing over
    the extended reals. -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The blocks as rows of the arrays -/

/-- The index maps, decided over the grid: the feature and product windows' block at point `t` is block row `t`, the
    weight's is the one whole block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem features_block_apply (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c main_arg0 : S50000x128.Idx → EReal) i := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The weight window's block at every point is the whole weight. -/
theorem weight_block_apply (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_v5 : S128x128.Idx → EReal) i := by
  obtain ⟨-, -, e0, e1, -⟩ := index_facts t
  unfold iblk0
  rw [View.read_apply]
  show V c main_v5 _ = V c main_v5 _
  congr 1
  funext a
  apply Fin.ext
  match a with
  | ⟨0, _⟩ => show win0_1.index t (0 : Fin 2) * 128 + 1 * (x 0).val = (i 0).val; omega
  | ⟨1, _⟩ => show win0_1.index t (1 : Fin 2) * 128 + 1 * (x 1).val = (i 1).val; omega

/-- The product window's block at point `t` sits at rows `5000 t …` of the product array. -/
theorem product_block_emb (t : Fin cfg0.N) (y : S5000x128.Idx) :
    ((((cfg0.win 2).blk t).view.emb y : S50000x128.Idx) 0).val = 5000 * t.val + (y 0).val
    ∧ ((((cfg0.win 2).blk t).view.emb y : S50000x128.Idx) 1).val = (y 1).val := by
  obtain ⟨-, -, -, -, e0, e1⟩ := index_facts t
  constructor
  · show win0_2.index t (0 : Fin 2) * 5000 + 1 * (y 0).val = _; omega
  · show win0_2.index t (1 : Fin 2) * 128 + 1 * (y 1).val = _; omega

/-! ## What a point writes back, and the whole array -/

/-- One element of the body's output block is the product at the array index it sits at, whenever the row of the feature
    block and the column of the weight block it reads are that index's row and column of the arrays. -/
theorem block_value (x0 : Vec Ideal S5000x128 .f32) (x1 : Vec Ideal S128x128 .f32)
    (h : S50000x128.Idx → EReal) (w : S128x128.Idx → EReal) (y : S5000x128.Idx) (i : S50000x128.Idx)
    (hrow : ∀ k : Fin 128, x0 (ix2 (y 0) k) = h (ix2 (i 0) k))
    (hcol : ∀ k : Fin 128, x1 (ix2 k (y 1)) = w (ix2 k (i 1))) :
    k0_pay1 (F := Ideal) x0 x1 y = Cert.Spec.mm h w i := by
  obtain ⟨p, q, rfl⟩ : ∃ (p : Fin 5000) (q : Fin 128), y = ix2 p q := ⟨y 0, y 1, eq_ix2 y⟩
  rw [payload_apply]
  show _ = ∑ k : Fin 128, h (ix2 (i 0) k) * w (ix2 k (i 1))
  exact Finset.sum_congr rfl fun k _ => by rw [hrow k, hcol k]

/-- What point `t` writes back is block `t` of the product of the feature array with the weight. -/
theorem flushed_eq (c : Dev nD) (t : Fin cfg0.N) :
    (dat0 (F := Ideal) V c).flushed 2 t
      = ((cfg0.win 2).blk t).view.read (Elt Ideal) (Cert.Spec.mm (V c main_arg0) (V c main_v5)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  funext y
  obtain ⟨r0, r1⟩ := product_block_emb t y
  refine block_value _ _ _ _ y _ (fun k => ?_) (fun k => ?_)
  · exact features_block_apply V c t _ _ (by show _ = 5000 * t.val + (y 0).val; exact r0) rfl
  · exact weight_block_apply V c t _ _ rfl (by show _ = (y 1).val; exact r1)

/-- An index of the product array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- Every row of the product array is in the block of the point numbered by the row divided by the rows per block. -/
theorem covered (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by omega⟩
  have ht : t.val = (i 0).val / 5000 := rfl
  obtain ⟨-, -, -, -, e0, e1⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The product array after the region: the feature array times the weight, index by index. -/
theorem final (c : Dev nD) :
    (dat0 (F := Ideal) V c).arrAt 2 cfg0.N = Cert.Spec.mm (V c main_arg0) (V c main_v5) :=
  (dat0 (F := Ideal) V c).arrAt_eq_of_cover 2 (Cert.Spec.mm (V c main_arg0) (V c main_v5))
    (fun t _ => flushed_eq V c t) covered

end Cert.KernelIdeal.Product0

end
-- ==== Proof.Region1.lean ====
/-
  The message of every edge, read off the edge arrays row block by row block.

  The two edge arrays (the gathered rows and the edges' own features) and the result have 600000 rows of 128. The
  grid has 100 points; point t stages rows 6000 t … 6000 t + 5999 of each input, adds the two blocks entry by entry,
  clips the sum at zero, and writes the block back to the same rows of the result. The 100 row blocks tile the
  result, so after the last point the result holds, at every index, the clipped sum of the two inputs at that index.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Message1

open Idealize.ShloMosaic.ValueIdx

/-- The body's one store starts at row 0, column 0 of the staged block. -/
theorem origin : (![0, 0] : Fin 2 → Nat) = fun _ => 0 := funext fun a => by fin_cases a <;> rfl

/-- The stored block at an entry: the two staged blocks added there, clipped at zero. -/
theorem payload_apply (x0 x1 : Vec Ideal S6000x128 .f32) (j : S6000x128.Idx) :
    k1_pay1 (F := Ideal) x0 x1 j = max (x0 j + x1 j) 0 := by
  unfold k1_pay1
  simp only [shapeCast_self]
  show max (x0 j + x1 j) (Ideal.ofBits .f32 0x00000000#32) = _
  rw [Ideal.ofBits_zero_f32]

/-- The message at an index from the two arrays read at indices that are both that index. -/
theorem msg_of_reads (xs ea : S600000x128.Idx → EReal) (k0 k1 k : S600000x128.Idx) (h0 : k0 = k) (h1 : k1 = k) :
    max (xs k0 + ea k1) 0 = Cert.Spec.msg xs ea k := by
  subst h0 h1; rfl

/-- Where each window's block sits at grid point t: row block t, the one column block (decided over the grid). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is row block t of the clipped sum of the two edge arrays. -/
theorem flushed_eq (c : Dev nD) (t : Fin cfg1.N) :
    (dat1 (F := Ideal) V c).flushed 2 t
      = ((cfg1.win 2).blk t).view.read (Elt Ideal) (Cert.Spec.msg (V c main_v7) (V c main_arg2)) := by
  show (cfg1.win 2).cut (grid1.coords t) ((dat1 (F := Ideal) V c).after 2 t) = _
  rw [after1_2]
  unfold out1_2
  rw [View.canon_unit_zero origin]
  simp only [View.ld_unit_zero (S := S6000x128) origin]
  obtain ⟨e0, e1, e2, e3, e4, e5⟩ := block_index t
  funext j
  show k1_pay1 (F := Ideal) (iblk1 V c 0 t) (iblk1 V c 1 t) j
    = Cert.Spec.msg (V c main_v7) (V c main_arg2) (((cfg1.win 2).blk t).view.emb j)
  refine (payload_apply _ _ _).trans ?_
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 128 + 1 * (j 1).val = win1_2.index t (1 : Fin 2) * 128 + 1 * (j 1).val; omega
  exact msg_of_reads (V c main_v7) (V c main_arg2) _ _ _ h0 h1

/-- An index of the result lies in point t's block iff each coordinate lies in the block's range on its axis. -/
theorem mem_block (t : Fin cfg1.N) (i : S600000x128.Idx) :
    i ∈ ((cfg1.win 2).blk t).view.set ↔ ∀ a : Fin 2, win1_2.index t a * S6000x128.size a ≤ (i a).val
      ∧ (i a).val < win1_2.index t a * S6000x128.size a + S6000x128.size a := by
  show i ∈ ((View.whole main_v8).slice (win1_2.rect t)).set ↔ _
  rw [View.set_slice_whole, Rect.mem_set_unit]
  exact Iff.rfl

/-- Every index of the result is written back by some point: row r by point r / 6000. -/
theorem covered (i : S600000x128.Idx) :
    ∃ t : Fin cfg1.N, (cfg1.win 2).flush t = true ∧ i ∈ ((cfg1.win 2).blk t).view.set := by
  have hN : cfg1.N = 100 := N_1
  have hi0 : (i 0).val < 600000 := (i 0).isLt
  have hi1 : (i 1).val < 128 := (i 1).isLt
  obtain ⟨t, ht⟩ : ∃ t : Fin cfg1.N, t.val = (i 0).val / 6000 := ⟨⟨(i 0).val / 6000, by omega⟩, rfl⟩
  obtain ⟨-, -, -, -, e4, e5⟩ := block_index t
  refine ⟨t, flush1_2 t, ?_⟩
  rw [mem_block]
  intro a
  match a with
  | ⟨0, _⟩ => show win1_2.index t (0 : Fin 2) * 6000 ≤ (i 0).val ∧ (i 0).val < win1_2.index t (0 : Fin 2) * 6000 + 6000; omega
  | ⟨1, _⟩ => show win1_2.index t (1 : Fin 2) * 128 ≤ (i 1).val ∧ (i 1).val < win1_2.index t (1 : Fin 2) * 128 + 128; omega

/-- After the region the result array holds the message of every edge. -/
theorem final (c : Dev nD) :
    (dat1 (F := Ideal) V c).arrAt 2 cfg1.N = Cert.Spec.msg (V c main_v7) (V c main_arg2) :=
  (dat1 (F := Ideal) V c).arrAt_eq_of_cover 2 (Cert.Spec.msg (V c main_v7) (V c main_arg2))
    (fun t _ => flushed_eq V c t) covered

end Cert.KernelIdeal.Message1

end
-- ==== Proof.Region2.lean ====
/-
  A middle layer's update, from blocks to the array: the output array after the region is the layer's update
  of the three arrays the region reads — the summed messages plus the bias row, clipped at zero, plus the layer's input —
  index by index. The body's value at an index of a block, the rows of each array a block holds, what a point writes
  back, and the blocks' tiling of the 50000 rows by 5000.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

namespace Cert.KernelIdeal.Update2

open Idealize.ShloMosaic.ValueIdx

/-- The body reads and writes whole staging blocks: every access starts at offset (0, 0). -/
theorem off_zero : (![0, 0] : Fin 2 → Nat) = fun _ => 0 := funext fun a => by fin_cases a <;> rfl

/-! ## The body's value at an index of a block -/

/-- The bias row, stretched over the rows of a block, read at (p, q) is the row's entry q. -/
theorem row_apply (x1 : Vec Ideal S1x128 .f32) (h : S1x128.Broadcasts S5000x128) (p : Fin 5000) (q : Fin 128) :
    broadcastTo S5000x128 x1 h (ix2 p q) = x1 (ix2 0 q) := by
  refine broadcastTo_apply x1 h (ix2 p q) (ix2 0 q) fun a => ?_
  match a with
  | ⟨0, _⟩ => rfl
  | ⟨1, _⟩ => rfl

/-- What the body stores at (p, q) of the output block: the summed messages there plus the bias at column q, clipped
    at zero, plus the residual there. -/
theorem pay_apply (x0 : Vec Ideal S5000x128 .f32) (x1 : Vec Ideal S1x128 .f32) (x2 : Vec Ideal S5000x128 .f32)
    (p : Fin 5000) (q : Fin 128) :
    k2_pay1 x0 x1 x2 (ix2 p q) = max (x0 (ix2 p q) + x1 (ix2 0 q)) 0 + x2 (ix2 p q) := by
  unfold k2_pay1
  simp only [shapeCast_self]
  rw [addf_apply, maximumf_apply, addf_apply, broadcast_apply, row_apply]
  exact congrArg (fun z => max (x0 (ix2 p q) + x1 (ix2 0 q)) z + x2 (ix2 p q)) Ideal.ofBits_zero_f32

/-! ## Where each window's block sits -/

/-- The block indices over the grid: at point t the three row-blocked windows are at block (t, 0), the bias window at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The summed messages' block at point t is rows 5000 t … 5000 t + 4999 of their array. -/
theorem sums_blk (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v11 : S50000x128.Idx → Elt Ideal .f32) i := by
  obtain ⟨e0, e1, -⟩ := idx_facts t
  unfold iblk2
  rw [View.read_apply]
  show V c main_v11 _ = V c main_v11 _
  congr 1
  funext a
  apply Fin.ext
  match a with
  | ⟨0, _⟩ => show win2_0.index t 0 * 5000 + 1 * (y 0).val = (i 0).val; omega
  | ⟨1, _⟩ => show win2_0.index t 1 * 128 + 1 * (y 1).val = (i 1).val; omega

/-- The bias window's block is the whole row at every point. -/
theorem bias_blk (c : Dev nD) (t : Fin cfg2.N) (y : S1x128.Idx) (k : S1x128.Idx)
    (h0 : (k 0).val = (y 0).val) (h1 : (k 1).val = (y 1).val) :
    (iblk2 V c 1 t : Vec Ideal S1x128 .f32) y = (V c main_v14 : S1x128.Idx → Elt Ideal .f32) k := by
  obtain ⟨-, -, e0, e1, -⟩ := idx_facts t
  unfold iblk2
  rw [View.read_apply]
  show V c main_v14 _ = V c main_v14 _
  congr 1
  funext a
  apply Fin.ext
  match a with
  | ⟨0, _⟩ => show win2_1.index t 0 * 1 + 1 * (y 0).val = (k 0).val; omega
  | ⟨1, _⟩ => show win2_1.index t 1 * 128 + 1 * (y 1).val = (k 1).val; omega

/-- The residual's block at point t is rows 5000 t … 5000 t + 4999 of its array. -/
theorem resid_blk (c : Dev nD) (t : Fin cfg2.N) (y : S5000x128.Idx) (i : S50000x128.Idx)
    (h0 : (i 0).val = 5000 * t.val + (y 0).val) (h1 : (i 1).val = (y 1).val) :
    (iblk2 V c 2 t : Vec Ideal S5000x128 .f32) y = (V c main_arg0 : S50000x128.Idx → Elt Ideal .f32) i := by
  obtain ⟨-, -, -, -, e0, e1, -⟩ := idx_facts t
  unfold iblk2
  rw [View.read_apply]
  show V c main_arg0 _ = V c main_arg0 _
  congr 1
  funext a
  apply Fin.ext
  match a with
  | ⟨0, _⟩ => show win2_2.index t 0 * 5000 + 1 * (y 0).val = (i 0).val; omega
  | ⟨1, _⟩ => show win2_2.index t 1 * 128 + 1 * (y 1).val = (i 1).val; omega

/-! ## What a point writes back -/

/-- Point t writes back block t of the layer's update of the three arrays as the region finds them. -/
theorem flushed_eq (c : Dev nD) (t : Fin cfg2.N) :
    (dat2 (F := Ideal) V c).flushed 3 t = ((cfg2.win 3).blk t).view.read (Elt Ideal)
      (Cert.Spec.updRelu (V c main_v11) (V c main_v14) (V c main_arg0)) := by
  show (cfg2.win 3).cut (grid2.coords t) ((dat2 V c).after 3 t) = _
  rw [after2_3]
  unfold out2_3
  rw [View.canon_unit_zero off_zero]
  simp only [View.ld_unit_zero (S := S5000x128) off_zero, View.ld_unit_zero (S := S1x128) off_zero]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.Spec.updRelu (V c main_v11) (V c main_v14) (V c main_arg0) (((cfg2.win 3).blk t).view.emb (ix2 p q))
  refine (pay_apply _ _ _ p q).trans ?_
  have hi0 : ((((cfg2.win 3).blk t).view.emb (ix2 p q) : S50000x128.Idx) 0).val = 5000 * t.val + p.val := by
    show win2_3.index t 0 * 5000 + 1 * p.val = _; omega
  have hi1 : ((((cfg2.win 3).blk t).view.emb (ix2 p q) : S50000x128.Idx) 1).val = q.val := by
    show win2_3.index t 1 * 128 + 1 * q.val = _; omega
  rw [sums_blk V c t (ix2 p q) _ hi0 hi1, resid_blk V c t (ix2 p q) _ hi0 hi1,
    bias_blk V c t (ix2 0 q) (ix2 0 ((((cfg2.win 3).blk t).view.emb (ix2 p q) : S50000x128.Idx) 1)) rfl hi1]
  rfl

/-! ## The blocks tile the array -/

/-- An index of the array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v15).slice (win2_3.rect t)).set ↔ _
  rw [View.set_slice_whole, Rect.mem_set_unit]
  exact Iff.rfl

/-- Row r lies in the block of point r / 5000, and every point writes its block back. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_3 _, ?_⟩
  rw [mem_blk]
  obtain ⟨-, -, -, -, -, -, e0, e1⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e1]; omega

/-! ## The array after the region -/

/-- The output array after the region is the layer's update of the three arrays as the region finds them. -/
theorem final (c : Dev nD) :
    (dat2 (F := Ideal) V c).arrAt 3 cfg2.N = Cert.Spec.updRelu (V c main_v11) (V c main_v14) (V c main_arg0) :=
  (dat2 (F := Ideal) V c).arrAt_eq_of_cover 3 _ (fun t _ => flushed_eq V c t) cover

end Cert.KernelIdeal.Update2

end
-- ==== Proof.Keep_v1.lean ====
/-
  Buffers the segments of the program leave alone: `main_v1` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_v1_2 (c : Dev nD) : W2 m ρ c (Proc.devRef .tc main_v1) = W1 m ρ c (Proc.devRef .tc main_v1) :=
  W2_of_ne m ρ c main_v1 (by decide)

theorem keep_v1_3 (c : Dev nD) : W3 m ρ c (Proc.devRef .tc main_v1) = W2 m ρ c (Proc.devRef .tc main_v1) := by
  show StableHlo.after hostOps1 (W2 m ρ c) (Proc.devRef .tc main_v1) = _
  after_results_simp

theorem keep_v1_4 (c : Dev nD) : W4 m ρ c (Proc.devRef .tc main_v1) = W3 m ρ c (Proc.devRef .tc main_v1) :=
  W4_of_ne m ρ c main_v1 (by decide)

theorem keep_v1_5 (c : Dev nD) : W5 m ρ c (Proc.devRef .tc main_v1) = W4 m ρ c (Proc.devRef .tc main_v1) := by
  show StableHlo.after hostOps2 (W4 m ρ c) (Proc.devRef .tc main_v1) = _
  after_results

theorem keep_v1_6 (c : Dev nD) : W6 m ρ c (Proc.devRef .tc main_v1) = W5 m ρ c (Proc.devRef .tc main_v1) :=
  W6_of_ne m ρ c main_v1 (by decide)

theorem keep_v1_7 (c : Dev nD) : W7 m ρ c (Proc.devRef .tc main_v1) = W6 m ρ c (Proc.devRef .tc main_v1) := by
  show StableHlo.after hostOps3 (W6 m ρ c) (Proc.devRef .tc main_v1) = _
  after_results

theorem keep_v1_8 (c : Dev nD) : W8 m ρ c (Proc.devRef .tc main_v1) = W7 m ρ c (Proc.devRef .tc main_v1) :=
  W8_of_ne m ρ c main_v1 (by decide)

theorem keep_v1_9 (c : Dev nD) : W9 m ρ c (Proc.devRef .tc main_v1) = W8 m ρ c (Proc.devRef .tc main_v1) := by
  show StableHlo.after hostOps4 (W8 m ρ c) (Proc.devRef .tc main_v1) = _
  after_results_simp

theorem keep_v1_10 (c : Dev nD) : W10 m ρ c (Proc.devRef .tc main_v1) = W9 m ρ c (Proc.devRef .tc main_v1) :=
  W10_of_ne m ρ c main_v1 (by decide)

theorem keep_v1_11 (c : Dev nD) : W11 m ρ c (Proc.devRef .tc main_v1) = W10 m ρ c (Proc.devRef .tc main_v1) := by
  show StableHlo.after hostOps5 (W10 m ρ c) (Proc.devRef .tc main_v1) = _
  after_results

theorem keep_v1_12 (c : Dev nD) : W12 m ρ c (Proc.devRef .tc main_v1) = W11 m ρ c (Proc.devRef .tc main_v1) :=
  W12_of_ne m ρ c main_v1 (by decide)

theorem keep_v1_13 (c : Dev nD) : W13 m ρ c (Proc.devRef .tc main_v1) = W12 m ρ c (Proc.devRef .tc main_v1) := by
  show StableHlo.after hostOps6 (W12 m ρ c) (Proc.devRef .tc main_v1) = _
  after_results

theorem keep_v1_14 (c : Dev nD) : W14 m ρ c (Proc.devRef .tc main_v1) = W13 m ρ c (Proc.devRef .tc main_v1) :=
  W14_of_ne m ρ c main_v1 (by decide)

/-- From boundary 1 to boundary 2 nothing writes the buffer. -/
theorem through_v1_2 (c : Dev nD) : W2 m ρ c (Proc.devRef .tc main_v1) = W1 m ρ c (Proc.devRef .tc main_v1) :=
  keep_v1_2 m ρ c

/-- From boundary 1 to boundary 8 nothing writes the buffer. -/
theorem through_v1_8 (c : Dev nD) : W8 m ρ c (Proc.devRef .tc main_v1) = W1 m ρ c (Proc.devRef .tc main_v1) :=
  (keep_v1_8 m ρ c).trans ((keep_v1_7 m ρ c).trans ((keep_v1_6 m ρ c).trans ((keep_v1_5 m ρ c).trans ((keep_v1_4 m ρ c).trans ((keep_v1_3 m ρ c).trans (keep_v1_2 m ρ c))))))

/-- From boundary 1 to boundary 14 nothing writes the buffer. -/
theorem through_v1_14 (c : Dev nD) : W14 m ρ c (Proc.devRef .tc main_v1) = W1 m ρ c (Proc.devRef .tc main_v1) :=
  (keep_v1_14 m ρ c).trans ((keep_v1_13 m ρ c).trans ((keep_v1_12 m ρ c).trans ((keep_v1_11 m ρ c).trans ((keep_v1_10 m ρ c).trans ((keep_v1_9 m ρ c).trans ((keep_v1_8 m ρ c).trans ((keep_v1_7 m ρ c).trans ((keep_v1_6 m ρ c).trans ((keep_v1_5 m ρ c).trans ((keep_v1_4 m ρ c).trans ((keep_v1_3 m ρ c).trans (keep_v1_2 m ρ c))))))))))))

end Cert.KernelIdeal.Keep

end
-- ==== Proof.Keep_v3.lean ====
/-
  Buffers the segments of the program leave alone: `main_v3` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_v3_2 (c : Dev nD) : W2 m ρ c (Proc.devRef .tc main_v3) = W1 m ρ c (Proc.devRef .tc main_v3) :=
  W2_of_ne m ρ c main_v3 (by decide)

theorem keep_v3_3 (c : Dev nD) : W3 m ρ c (Proc.devRef .tc main_v3) = W2 m ρ c (Proc.devRef .tc main_v3) := by
  show StableHlo.after hostOps1 (W2 m ρ c) (Proc.devRef .tc main_v3) = _
  after_results_simp

theorem keep_v3_4 (c : Dev nD) : W4 m ρ c (Proc.devRef .tc main_v3) = W3 m ρ c (Proc.devRef .tc main_v3) :=
  W4_of_ne m ρ c main_v3 (by decide)

theorem keep_v3_5 (c : Dev nD) : W5 m ρ c (Proc.devRef .tc main_v3) = W4 m ρ c (Proc.devRef .tc main_v3) := by
  show StableHlo.after hostOps2 (W4 m ρ c) (Proc.devRef .tc main_v3) = _
  after_results

theorem keep_v3_6 (c : Dev nD) : W6 m ρ c (Proc.devRef .tc main_v3) = W5 m ρ c (Proc.devRef .tc main_v3) :=
  W6_of_ne m ρ c main_v3 (by decide)

theorem keep_v3_7 (c : Dev nD) : W7 m ρ c (Proc.devRef .tc main_v3) = W6 m ρ c (Proc.devRef .tc main_v3) := by
  show StableHlo.after hostOps3 (W6 m ρ c) (Proc.devRef .tc main_v3) = _
  after_results

theorem keep_v3_8 (c : Dev nD) : W8 m ρ c (Proc.devRef .tc main_v3) = W7 m ρ c (Proc.devRef .tc main_v3) :=
  W8_of_ne m ρ c main_v3 (by decide)

theorem keep_v3_9 (c : Dev nD) : W9 m ρ c (Proc.devRef .tc main_v3) = W8 m ρ c (Proc.devRef .tc main_v3) := by
  show StableHlo.after hostOps4 (W8 m ρ c) (Proc.devRef .tc main_v3) = _
  after_results_simp

theorem keep_v3_10 (c : Dev nD) : W10 m ρ c (Proc.devRef .tc main_v3) = W9 m ρ c (Proc.devRef .tc main_v3) :=
  W10_of_ne m ρ c main_v3 (by decide)

theorem keep_v3_11 (c : Dev nD) : W11 m ρ c (Proc.devRef .tc main_v3) = W10 m ρ c (Proc.devRef .tc main_v3) := by
  show StableHlo.after hostOps5 (W10 m ρ c) (Proc.devRef .tc main_v3) = _
  after_results

theorem keep_v3_12 (c : Dev nD) : W12 m ρ c (Proc.devRef .tc main_v3) = W11 m ρ c (Proc.devRef .tc main_v3) :=
  W12_of_ne m ρ c main_v3 (by decide)

theorem keep_v3_13 (c : Dev nD) : W13 m ρ c (Proc.devRef .tc main_v3) = W12 m ρ c (Proc.devRef .tc main_v3) := by
  show StableHlo.after hostOps6 (W12 m ρ c) (Proc.devRef .tc main_v3) = _
  after_results

theorem keep_v3_14 (c : Dev nD) : W14 m ρ c (Proc.devRef .tc main_v3) = W13 m ρ c (Proc.devRef .tc main_v3) :=
  W14_of_ne m ρ c main_v3 (by decide)

theorem keep_v3_15 (c : Dev nD) : W15 m ρ c (Proc.devRef .tc main_v3) = W14 m ρ c (Proc.devRef .tc main_v3) := by
  show StableHlo.after hostOps7 (W14 m ρ c) (Proc.devRef .tc main_v3) = _
  after_results_simp

theorem keep_v3_16 (c : Dev nD) : W16 m ρ c (Proc.devRef .tc main_v3) = W15 m ρ c (Proc.devRef .tc main_v3) :=
  W16_of_ne m ρ c main_v3 (by decide)

/-- From boundary 1 to boundary 4 nothing writes the buffer. -/
theorem through_v3_4 (c : Dev nD) : W4 m ρ c (Proc.devRef .tc main_v3) = W1 m ρ c (Proc.devRef .tc main_v3) :=
  (keep_v3_4 m ρ c).trans ((keep_v3_3 m ρ c).trans (keep_v3_2 m ρ c))

/-- From boundary 1 to boundary 10 nothing writes the buffer. -/
theorem through_v3_10 (c : Dev nD) : W10 m ρ c (Proc.devRef .tc main_v3) = W1 m ρ c (Proc.devRef .tc main_v3) :=
  (keep_v3_10 m ρ c).trans ((keep_v3_9 m ρ c).trans ((keep_v3_8 m ρ c).trans ((keep_v3_7 m ρ c).trans ((keep_v3_6 m ρ c).trans ((keep_v3_5 m ρ c).trans ((keep_v3_4 m ρ c).trans ((keep_v3_3 m ρ c).trans (keep_v3_2 m ρ c))))))))

/-- From boundary 1 to boundary 16 nothing writes the buffer. -/
theorem through_v3_16 (c : Dev nD) : W16 m ρ c (Proc.devRef .tc main_v3) = W1 m ρ c (Proc.devRef .tc main_v3) :=
  (keep_v3_16 m ρ c).trans ((keep_v3_15 m ρ c).trans ((keep_v3_14 m ρ c).trans ((keep_v3_13 m ρ c).trans ((keep_v3_12 m ρ c).trans ((keep_v3_11 m ρ c).trans ((keep_v3_10 m ρ c).trans ((keep_v3_9 m ρ c).trans ((keep_v3_8 m ρ c).trans ((keep_v3_7 m ρ c).trans ((keep_v3_6 m ρ c).trans ((keep_v3_5 m ρ c).trans ((keep_v3_4 m ρ c).trans ((keep_v3_3 m ρ c).trans (keep_v3_2 m ρ c))))))))))))))

end Cert.KernelIdeal.Keep

end
-- ==== Proof.Keep_arg0.lean ====
/-
  Buffers the segments of the program leave alone: `main_arg0` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg0_1 (c : Dev nD) : W1 m ρ c (Proc.devRef .tc main_arg0) = W0 m ρ c (Proc.devRef .tc main_arg0) := by
  show StableHlo.after hostOps0 (W0 m ρ c) (Proc.devRef .tc main_arg0) = _
  after_results

theorem keep_arg0_2 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem keep_arg0_3 (c : Dev nD) : W3 m ρ c (Proc.devRef .tc main_arg0) = W2 m ρ c (Proc.devRef .tc main_arg0) := by
  show StableHlo.after hostOps1 (W2 m ρ c) (Proc.devRef .tc main_arg0) = _
  after_results_simp

theorem keep_arg0_4 (c : Dev nD) : W4 m ρ c (Proc.devRef .tc main_arg0) = W3 m ρ c (Proc.devRef .tc main_arg0) :=
  W4_of_ne m ρ c main_arg0 (by decide)

theorem keep_arg0_5 (c : Dev nD) : W5 m ρ c (Proc.devRef .tc main_arg0) = W4 m ρ c (Proc.devRef .tc main_arg0) := by
  show StableHlo.after hostOps2 (W4 m ρ c) (Proc.devRef .tc main_arg0) = _
  after_results

/-- From boundary 0 to boundary 1 nothing writes the buffer. -/
theorem through_arg0_1 (c : Dev nD) : W1 m ρ c (Proc.devRef .tc main_arg0) = W0 m ρ c (Proc.devRef .tc main_arg0) :=
  keep_arg0_1 m ρ c

/-- From boundary 0 to boundary 5 nothing writes the buffer. -/
theorem through_arg0_5 (c : Dev nD) : W5 m ρ c (Proc.devRef .tc main_arg0) = W0 m ρ c (Proc.devRef .tc main_arg0) :=
  (keep_arg0_5 m ρ c).trans ((keep_arg0_4 m ρ c).trans ((keep_arg0_3 m ρ c).trans ((keep_arg0_2 m ρ c).trans (keep_arg0_1 m ρ c))))

end Cert.KernelIdeal.Keep

end
-- ==== Proof.Keep_arg2.lean ====
/-
  Buffers the segments of the program leave alone: `main_arg2` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg2_1 (c : Dev nD) : W1 m ρ c (Proc.devRef .tc main_arg2) = W0 m ρ c (Proc.devRef .tc main_arg2) := by
  show StableHlo.after hostOps0 (W0 m ρ c) (Proc.devRef .tc main_arg2) = _
  after_results

theorem keep_arg2_2 (c : Dev nD) : W2 m ρ c (Proc.devRef .tc main_arg2) = W1 m ρ c (Proc.devRef .tc main_arg2) :=
  W2_of_ne m ρ c main_arg2 (by decide)

theorem keep_arg2_3 (c : Dev nD) : W3 m ρ c (Proc.devRef .tc main_arg2) = W2 m ρ c (Proc.devRef .tc main_arg2) := by
  show StableHlo.after hostOps1 (W2 m ρ c) (Proc.devRef .tc main_arg2) = _
  after_results_simp

theorem keep_arg2_4 (c : Dev nD) : W4 m ρ c (Proc.devRef .tc main_arg2) = W3 m ρ c (Proc.devRef .tc main_arg2) :=
  (W4_arr m ρ c 1).trans (((dat1 (V3 m ρ) c).arrAt_in 1 rfl _).trans (A_eq1 (V3 m ρ) c 1))

theorem keep_arg2_5 (c : Dev nD) : W5 m ρ c (Proc.devRef .tc main_arg2) = W4 m ρ c (Proc.devRef .tc main_arg2) := by
  show StableHlo.after hostOps2 (W4 m ρ c) (Proc.devRef .tc main_arg2) = _
  after_results

theorem keep_arg2_6 (c : Dev nD) : W6 m ρ c (Proc.devRef .tc main_arg2) = W5 m ρ c (Proc.devRef .tc main_arg2) :=
  W6_of_ne m ρ c main_arg2 (by decide)

theorem keep_arg2_7 (c : Dev nD) : W7 m ρ c (Proc.devRef .tc main_arg2) = W6 m ρ c (Proc.devRef .tc main_arg2) := by
  show StableHlo.after hostOps3 (W6 m ρ c) (Proc.devRef .tc main_arg2) = _
  after_results

theorem keep_arg2_8 (c : Dev nD) : W8 m ρ c (Proc.devRef .tc main_arg2) = W7 m ρ c (Proc.devRef .tc main_arg2) :=
  W8_of_ne m ρ c main_arg2 (by decide)

theorem keep_arg2_9 (c : Dev nD) : W9 m ρ c (Proc.devRef .tc main_arg2) = W8 m ρ c (Proc.devRef .tc main_arg2) := by
  show StableHlo.after hostOps4 (W8 m ρ c) (Proc.devRef .tc main_arg2) = _
  after_results_simp

theorem keep_arg2_10 (c : Dev nD) : W10 m ρ c (Proc.devRef .tc main_arg2) = W9 m ρ c (Proc.devRef .tc main_arg2) :=
  (W10_arr m ρ c 1).trans (((dat4 (V9 m ρ) c).arrAt_in 1 rfl _).trans (A_eq4 (V9 m ρ) c 1))

theorem keep_arg2_11 (c : Dev nD) : W11 m ρ c (Proc.devRef .tc main_arg2) = W10 m ρ c (Proc.devRef .tc main_arg2) := by
  show StableHlo.after hostOps5 (W10 m ρ c) (Proc.devRef .tc main_arg2) = _
  after_results

theorem keep_arg2_12 (c : Dev nD) : W12 m ρ c (Proc.devRef .tc main_arg2) = W11 m ρ c (Proc.devRef .tc main_arg2) :=
  W12_of_ne m ρ c main_arg2 (by decide)

theorem keep_arg2_13 (c : Dev nD) : W13 m ρ c (Proc.devRef .tc main_arg2) = W12 m ρ c (Proc.devRef .tc main_arg2) := by
  show StableHlo.after hostOps6 (W12 m ρ c) (Proc.devRef .tc main_arg2) = _
  after_results

theorem keep_arg2_14 (c : Dev nD) : W14 m ρ c (Proc.devRef .tc main_arg2) = W13 m ρ c (Proc.devRef .tc main_arg2) :=
  W14_of_ne m ρ c main_arg2 (by decide)

theorem keep_arg2_15 (c : Dev nD) : W15 m ρ c (Proc.devRef .tc main_arg2) = W14 m ρ c (Proc.devRef .tc main_arg2) := by
  show StableHlo.after hostOps7 (W14 m ρ c) (Proc.devRef .tc main_arg2) = _
  after_results_simp

/-- From boundary 0 to boundary 3 nothing writes the buffer. -/
theorem through_arg2_3 (c : Dev nD) : W3 m ρ c (Proc.devRef .tc main_arg2) = W0 m ρ c (Proc.devRef .tc main_arg2) :=
  (keep_arg2_3 m ρ c).trans ((keep_arg2_2 m ρ c).trans (keep_arg2_1 m ρ c))

/-- From boundary 0 to boundary 9 nothing writes the buffer. -/
theorem through_arg2_9 (c : Dev nD) : W9 m ρ c (Proc.devRef .tc main_arg2) = W0 m ρ c (Proc.devRef .tc main_arg2) :=
  (keep_arg2_9 m ρ c).trans ((keep_arg2_8 m ρ c).trans ((keep_arg2_7 m ρ c).trans ((keep_arg2_6 m ρ c).trans ((keep_arg2_5 m ρ c).trans ((keep_arg2_4 m ρ c).trans ((keep_arg2_3 m ρ c).trans ((keep_arg2_2 m ρ c).trans (keep_arg2_1 m ρ c))))))))

/-- From boundary 0 to boundary 15 nothing writes the buffer. -/
theorem through_arg2_15 (c : Dev nD) : W15 m ρ c (Proc.devRef .tc main_arg2) = W0 m ρ c (Proc.devRef .tc main_arg2) :=
  (keep_arg2_15 m ρ c).trans ((keep_arg2_14 m ρ c).trans ((keep_arg2_13 m ρ c).trans ((keep_arg2_12 m ρ c).trans ((keep_arg2_11 m ρ c).trans ((keep_arg2_10 m ρ c).trans ((keep_arg2_9 m ρ c).trans ((keep_arg2_8 m ρ c).trans ((keep_arg2_7 m ρ c).trans ((keep_arg2_6 m ρ c).trans ((keep_arg2_5 m ρ c).trans ((keep_arg2_4 m ρ c).trans ((keep_arg2_3 m ρ c).trans ((keep_arg2_2 m ρ c).trans (keep_arg2_1 m ρ c))))))))))))))

end Cert.KernelIdeal.Keep

end
-- ==== Proof.Keep_arg3.lean ====
/-
  Buffers the segments of the program leave alone: `main_arg3` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg3_1 (c : Dev nD) : W1 m ρ c (Proc.devRef .tc main_arg3) = W0 m ρ c (Proc.devRef .tc main_arg3) := by
  show StableHlo.after hostOps0 (W0 m ρ c) (Proc.devRef .tc main_arg3) = _
  after_results

theorem keep_arg3_2 (c : Dev nD) : W2 m ρ c (Proc.devRef .tc main_arg3) = W1 m ρ c (Proc.devRef .tc main_arg3) :=
  W2_of_ne m ρ c main_arg3 (by decide)

theorem keep_arg3_3 (c : Dev nD) : W3 m ρ c (Proc.devRef .tc main_arg3) = W2 m ρ c (Proc.devRef .tc main_arg3) := by
  show StableHlo.after hostOps1 (W2 m ρ c) (Proc.devRef .tc main_arg3) = _
  after_results_simp

theorem keep_arg3_4 (c : Dev nD) : W4 m ρ c (Proc.devRef .tc main_arg3) = W3 m ρ c (Proc.devRef .tc main_arg3) :=
  W4_of_ne m ρ c main_arg3 (by decide)

theorem keep_arg3_5 (c : Dev nD) : W5 m ρ c (Proc.devRef .tc main_arg3) = W4 m ρ c (Proc.devRef .tc main_arg3) := by
  show StableHlo.after hostOps2 (W4 m ρ c) (Proc.devRef .tc main_arg3) = _
  after_results

theorem keep_arg3_6 (c : Dev nD) : W6 m ρ c (Proc.devRef .tc main_arg3) = W5 m ρ c (Proc.devRef .tc main_arg3) :=
  W6_of_ne m ρ c main_arg3 (by decide)

theorem keep_arg3_7 (c : Dev nD) : W7 m ρ c (Proc.devRef .tc main_arg3) = W6 m ρ c (Proc.devRef .tc main_arg3) := by
  show StableHlo.after hostOps3 (W6 m ρ c) (Proc.devRef .tc main_arg3) = _
  after_results

theorem keep_arg3_8 (c : Dev nD) : W8 m ρ c (Proc.devRef .tc main_arg3) = W7 m ρ c (Proc.devRef .tc main_arg3) :=
  W8_of_ne m ρ c main_arg3 (by decide)

theorem keep_arg3_9 (c : Dev nD) : W9 m ρ c (Proc.devRef .tc main_arg3) = W8 m ρ c (Proc.devRef .tc main_arg3) := by
  show StableHlo.after hostOps4 (W8 m ρ c) (Proc.devRef .tc main_arg3) = _
  after_results_simp

theorem keep_arg3_10 (c : Dev nD) : W10 m ρ c (Proc.devRef .tc main_arg3) = W9 m ρ c (Proc.devRef .tc main_arg3) :=
  W10_of_ne m ρ c main_arg3 (by decide)

theorem keep_arg3_11 (c : Dev nD) : W11 m ρ c (Proc.devRef .tc main_arg3) = W10 m ρ c (Proc.devRef .tc main_arg3) := by
  show StableHlo.after hostOps5 (W10 m ρ c) (Proc.devRef .tc main_arg3) = _
  after_results

theorem keep_arg3_12 (c : Dev nD) : W12 m ρ c (Proc.devRef .tc main_arg3) = W11 m ρ c (Proc.devRef .tc main_arg3) :=
  W12_of_ne m ρ c main_arg3 (by decide)

/-- At boundary 0 the buffer is as it is. -/
theorem through_arg3_0 (c : Dev nD) : W0 m ρ c (Proc.devRef .tc main_arg3) = W0 m ρ c (Proc.devRef .tc main_arg3) := rfl

/-- From boundary 0 to boundary 6 nothing writes the buffer. -/
theorem through_arg3_6 (c : Dev nD) : W6 m ρ c (Proc.devRef .tc main_arg3) = W0 m ρ c (Proc.devRef .tc main_arg3) :=
  (keep_arg3_6 m ρ c).trans ((keep_arg3_5 m ρ c).trans ((keep_arg3_4 m ρ c).trans ((keep_arg3_3 m ρ c).trans ((keep_arg3_2 m ρ c).trans (keep_arg3_1 m ρ c)))))

/-- From boundary 0 to boundary 12 nothing writes the buffer. -/
theorem through_arg3_12 (c : Dev nD) : W12 m ρ c (Proc.devRef .tc main_arg3) = W0 m ρ c (Proc.devRef .tc main_arg3) :=
  (keep_arg3_12 m ρ c).trans ((keep_arg3_11 m ρ c).trans ((keep_arg3_10 m ρ c).trans ((keep_arg3_9 m ρ c).trans ((keep_arg3_8 m ρ c).trans ((keep_arg3_7 m ρ c).trans ((keep_arg3_6 m ρ c).trans ((keep_arg3_5 m ρ c).trans ((keep_arg3_4 m ρ c).trans ((keep_arg3_3 m ρ c).trans ((keep_arg3_2 m ρ c).trans (keep_arg3_1 m ρ c)))))))))))

end Cert.KernelIdeal.Keep

end
-- ==== Proof.Keep_arg4.lean ====
/-
  Buffers the segments of the program leave alone: `main_arg4` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg4_1 (c : Dev nD) : W1 m ρ c (Proc.devRef .tc main_arg4) = W0 m ρ c (Proc.devRef .tc main_arg4) := by
  show StableHlo.after hostOps0 (W0 m ρ c) (Proc.devRef .tc main_arg4) = _
  after_results

theorem keep_arg4_2 (c : Dev nD) : W2 m ρ c (Proc.devRef .tc main_arg4) = W1 m ρ c (Proc.devRef .tc main_arg4) :=
  W2_of_ne m ρ c main_arg4 (by decide)

theorem keep_arg4_3 (c : Dev nD) : W3 m ρ c (Proc.devRef .tc main_arg4) = W2 m ρ c (Proc.devRef .tc main_arg4) := by
  show StableHlo.after hostOps1 (W2 m ρ c) (Proc.devRef .tc main_arg4) = _
  after_results_simp

theorem keep_arg4_4 (c : Dev nD) : W4 m ρ c (Proc.devRef .tc main_arg4) = W3 m ρ c (Proc.devRef .tc main_arg4) :=
  W4_of_ne m ρ c main_arg4 (by decide)

theorem keep_arg4_5 (c : Dev nD) : W5 m ρ c (Proc.devRef .tc main_arg4) = W4 m ρ c (Proc.devRef .tc main_arg4) := by
  show StableHlo.after hostOps2 (W4 m ρ c) (Proc.devRef .tc main_arg4) = _
  after_results

theorem keep_arg4_6 (c : Dev nD) : W6 m ρ c (Proc.devRef .tc main_arg4) = W5 m ρ c (Proc.devRef .tc main_arg4) :=
  W6_of_ne m ρ c main_arg4 (by decide)

theorem keep_arg4_7 (c : Dev nD) : W7 m ρ c (Proc.devRef .tc main_arg4) = W6 m ρ c (Proc.devRef .tc main_arg4) := by
  show StableHlo.after hostOps3 (W6 m ρ c) (Proc.devRef .tc main_arg4) = _
  after_results

theorem keep_arg4_8 (c : Dev nD) : W8 m ρ c (Proc.devRef .tc main_arg4) = W7 m ρ c (Proc.devRef .tc main_arg4) :=
  W8_of_ne m ρ c main_arg4 (by decide)

theorem keep_arg4_9 (c : Dev nD) : W9 m ρ c (Proc.devRef .tc main_arg4) = W8 m ρ c (Proc.devRef .tc main_arg4) := by
  show StableHlo.after hostOps4 (W8 m ρ c) (Proc.devRef .tc main_arg4) = _
  after_results_simp

theorem keep_arg4_10 (c : Dev nD) : W10 m ρ c (Proc.devRef .tc main_arg4) = W9 m ρ c (Proc.devRef .tc main_arg4) :=
  W10_of_ne m ρ c main_arg4 (by decide)

theorem keep_arg4_11 (c : Dev nD) : W11 m ρ c (Proc.devRef .tc main_arg4) = W10 m ρ c (Proc.devRef .tc main_arg4) := by
  show StableHlo.after hostOps5 (W10 m ρ c) (Proc.devRef .tc main_arg4) = _
  after_results

theorem keep_arg4_12 (c : Dev nD) : W12 m ρ c (Proc.devRef .tc main_arg4) = W11 m ρ c (Proc.devRef .tc main_arg4) :=
  W12_of_ne m ρ c main_arg4 (by decide)

theorem keep_arg4_13 (c : Dev nD) : W13 m ρ c (Proc.devRef .tc main_arg4) = W12 m ρ c (Proc.devRef .tc main_arg4) := by
  show StableHlo.after hostOps6 (W12 m ρ c) (Proc.devRef .tc main_arg4) = _
  after_results

theorem keep_arg4_14 (c : Dev nD) : W14 m ρ c (Proc.devRef .tc main_arg4) = W13 m ρ c (Proc.devRef .tc main_arg4) :=
  W14_of_ne m ρ c main_arg4 (by decide)

theorem keep_arg4_15 (c : Dev nD) : W15 m ρ c (Proc.devRef .tc main_arg4) = W14 m ρ c (Proc.devRef .tc main_arg4) := by
  show StableHlo.after hostOps7 (W14 m ρ c) (Proc.devRef .tc main_arg4) = _
  after_results_simp

theorem keep_arg4_16 (c : Dev nD) : W16 m ρ c (Proc.devRef .tc main_arg4) = W15 m ρ c (Proc.devRef .tc main_arg4) :=
  W16_of_ne m ρ c main_arg4 (by decide)

/-- From boundary 0 to boundary 4 nothing writes the buffer. -/
theorem through_arg4_4 (c : Dev nD) : W4 m ρ c (Proc.devRef .tc main_arg4) = W0 m ρ c (Proc.devRef .tc main_arg4) :=
  (keep_arg4_4 m ρ c).trans ((keep_arg4_3 m ρ c).trans ((keep_arg4_2 m ρ c).trans (keep_arg4_1 m ρ c)))

/-- From boundary 0 to boundary 10 nothing writes the buffer. -/
theorem through_arg4_10 (c : Dev nD) : W10 m ρ c (Proc.devRef .tc main_arg4) = W0 m ρ c (Proc.devRef .tc main_arg4) :=
  (keep_arg4_10 m ρ c).trans ((keep_arg4_9 m ρ c).trans ((keep_arg4_8 m ρ c).trans ((keep_arg4_7 m ρ c).trans ((keep_arg4_6 m ρ c).trans ((keep_arg4_5 m ρ c).trans ((keep_arg4_4 m ρ c).trans ((keep_arg4_3 m ρ c).trans ((keep_arg4_2 m ρ c).trans (keep_arg4_1 m ρ c)))))))))

/-- From boundary 0 to boundary 16 nothing writes the buffer. -/
theorem through_arg4_16 (c : Dev nD) : W16 m ρ c (Proc.devRef .tc main_arg4) = W0 m ρ c (Proc.devRef .tc main_arg4) :=
  (keep_arg4_16 m ρ c).trans ((keep_arg4_15 m ρ c).trans ((keep_arg4_14 m ρ c).trans ((keep_arg4_13 m ρ c).trans ((keep_arg4_12 m ρ c).trans ((keep_arg4_11 m ρ c).trans ((keep_arg4_10 m ρ c).trans ((keep_arg4_9 m ρ c).trans ((keep_arg4_8 m ρ c).trans ((keep_arg4_7 m ρ c).trans ((keep_arg4_6 m ρ c).trans ((keep_arg4_5 m ρ c).trans ((keep_arg4_4 m ρ c).trans ((keep_arg4_3 m ρ c).trans ((keep_arg4_2 m ρ c).trans (keep_arg4_1 m ρ c)))))))))))))))

end Cert.KernelIdeal.Keep

end
-- ==== Proof.Keep_v15.lean ====
/-
  Buffers the segments of the program leave alone: `main_v15` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_v15_7 (c : Dev nD) : W7 m ρ c (Proc.devRef .tc main_v15) = W6 m ρ c (Proc.devRef .tc main_v15) := by
  show StableHlo.after hostOps3 (W6 m ρ c) (Proc.devRef .tc main_v15) = _
  after_results

theorem keep_v15_8 (c : Dev nD) : W8 m ρ c (Proc.devRef .tc main_v15) = W7 m ρ c (Proc.devRef .tc main_v15) :=
  (W8_arr m ρ c 0).trans (((dat3 (V7 m ρ) c).arrAt_in 0 rfl _).trans (A_eq3 (V7 m ρ) c 0))

theorem keep_v15_9 (c : Dev nD) : W9 m ρ c (Proc.devRef .tc main_v15) = W8 m ρ c (Proc.devRef .tc main_v15) := by
  show StableHlo.after hostOps4 (W8 m ρ c) (Proc.devRef .tc main_v15) = _
  after_results_simp

theorem keep_v15_10 (c : Dev nD) : W10 m ρ c (Proc.devRef .tc main_v15) = W9 m ρ c (Proc.devRef .tc main_v15) :=
  W10_of_ne m ρ c main_v15 (by decide)

theorem keep_v15_11 (c : Dev nD) : W11 m ρ c (Proc.devRef .tc main_v15) = W10 m ρ c (Proc.devRef .tc main_v15) := by
  show StableHlo.after hostOps5 (W10 m ρ c) (Proc.devRef .tc main_v15) = _
  after_results

/-- From boundary 6 to boundary 7 nothing writes the buffer. -/
theorem through_v15_7 (c : Dev nD) : W7 m ρ c (Proc.devRef .tc main_v15) = W6 m ρ c (Proc.devRef .tc main_v15) :=
  keep_v15_7 m ρ c

/-- From boundary 6 to boundary 11 nothing writes the buffer. -/
theorem through_v15_11 (c : Dev nD) : W11 m ρ c (Proc.devRef .tc main_v15) = W6 m ρ c (Proc.devRef .tc main_v15) :=
  (keep_v15_11 m ρ c).trans ((keep_v15_10 m ρ c).trans ((keep_v15_9 m ρ c).trans ((keep_v15_8 m ρ c).trans (keep_v15_7 m ρ c))))

end Cert.KernelIdeal.Keep

end
-- ==== Proof.Keep_v27.lean ====
/-
  Buffers the segments of the program leave alone: `main_v27` from the boundary where its contents are known to each
  boundary where they are read. A stretch of host operations that does not write the buffer keeps it; a kernel region
  keeps every buffer it does not stage, and an array it stages only as an input comes back as it went in.
-/
import proofs.«424701_j75024488726867_1_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_v27_13 (c : Dev nD) : W13 m ρ c (Proc.devRef .tc main_v27) = W12 m ρ c (Proc.devRef .tc main_v27) := by
  show StableHlo.after hostOps6 (W12 m ρ c) (Proc.devRef .tc main_v27) = _
  after_results

theorem keep_v27_14 (c : Dev nD) : W14 m ρ c (Proc.devRef .tc main_v27) = W13 m ρ c (Proc.devRef .tc main_v27) :=
  (W14_arr m ρ c 0).trans (((dat6 (V13 m ρ) c).arrAt_in 0 rfl _).trans (A_eq6 (V13 m ρ) c 0))

theorem keep_v27_15 (c : Dev nD) : W15 m ρ c (Proc.devRef .tc main_v27) = W14 m ρ c (Proc.devRef .tc main_v27) := by
  show StableHlo.after hostOps7 (W14 m ρ c) (Proc.devRef .tc main_v27) = _
  after_results_simp

theorem keep_v27_16 (c : Dev nD) : W16 m ρ c (Proc.devRef .tc main_v27) = W15 m ρ c (Proc.devRef .tc main_v27) :=
  W16_of_ne m ρ c main_v27 (by decide)

theorem keep_v27_17 (c : Dev nD) : W17 m ρ c (Proc.devRef .tc main_v27) = W16 m ρ c (Proc.devRef .tc main_v27) := by
  show StableHlo.after hostOps8 (W16 m ρ c) (Proc.devRef .tc main_v27) = _
  after_results

/-- From boundary 12 to boundary 13 nothing writes the buffer. -/
theorem through_v27_13 (c : Dev nD) : W13 m ρ c (Proc.devRef .tc main_v27) = W12 m ρ c (Proc.devRef .tc main_v27) :=
  keep_v27_13 m ρ c

/-- From boundary 12 to boundary 17 nothing writes the buffer. -/
theorem through_v27_17 (c : Dev nD) : W17 m ρ c (Proc.devRef .tc main_v27) = W12 m ρ c (Proc.devRef .tc main_v27) :=
  (keep_v27_17 m ρ c).trans ((keep_v27_16 m ρ c).trans ((keep_v27_15 m ρ c).trans ((keep_v27_14 m ρ c).trans (keep_v27_13 m ρ c))))

end Cert.KernelIdeal.Keep

end
-- ==== Proof.LibTypedRef.lean ====
/-
  Typed references: a value carried to a buffer's own type and back.

  A host operation spelt over typed references reads each operand from its buffer's type to the value's type and
  writes its result the other way; both are transports along the one equation between the two types. When a later
  operation consumes an earlier one's result, the two transports meet and cancel, whatever the reference is.
-/
import Idealize.ShloMosaic.Lib.StableHlo

namespace Idealize.ShloMosaic.StableHlo.TRef

variable {sig : RefSig} {Val : EltTy → Type} {T : BufTy}

/-- Reading back a value that was written through the same typed reference gives the value. -/
theorem ofBuf_toBuf (x : TRef sig T) (v : T.Contents Val) : x.ofBuf (x.toBuf v) = v := by
  obtain ⟨r, h, _, _⟩ := x
  subst h
  rfl

/-- Writing a value that was read through the same typed reference gives the value. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.Walk0.lean ====
/-
  One layer, walked through the program: from the layer's input array to its output array.

  The layer's stretch of the program is six steps. A host stretch cuts the layer's weight out of the weight stack. A
  kernel region multiplies the input by it. A host stretch gathers the product's rows at the edges' source nodes, with
  a guard that does nothing when the source nodes are in range. A kernel region forms the messages. A host stretch
  sums the messages into their destination nodes and cuts the layer's bias row out of the bias table. A kernel region
  updates. Each step's result buffer is read off the fold of buffer contents at the step's exit boundary: a region's
  output array is the whole-array function its blocks tile, a host operation's result is its function of its operands'
  contents at the stretch's entry, and every operand is either the previous step's result or a buffer nothing has
  written since it was made.
-/
import proofs.«424701_j75024488726867_1_alg».proof.Proof.Gen.KernelIdeal.Frame
import proofs.«424701_j75024488726867_1_alg».proof.Proof.Layer
import proofs.«424701_j75024488726867_1_alg».proof.Proof.WalkBase
import proofs.«424701_j75024488726867_1_alg».proof.Proof.Region0
import proofs.«424701_j75024488726867_1_alg».proof.Proof.Region1
import proofs.«424701_j75024488726867_1_alg».proof.Proof.Region2
import proofs.«424701_j75024488726867_1_alg».proof.Proof.Keep_v1
import proofs.«424701_j75024488726867_1_alg».proof.Proof.Keep_v3
import proofs.«424701_j75024488726867_1_alg».proof.Proof.Keep_arg0
import proofs.«424701_j75024488726867_1_alg».proof.Proof.Keep_arg2
import proofs.«424701_j75024488726867_1_alg».proof.Proof.Keep_arg3
import proofs.«424701_j75024488726867_1_alg».proof.Proof.Keep_arg4
import proofs.«424701_j75024488726867_1_alg».proof.Proof.Keep_v15
import proofs.«424701_j75024488726867_1_alg».proof.Proof.Keep_v27
import proofs.«424701_j75024488726867_1_alg».proof.Proof.LibTypedRef
import Idealize.ShloMosaic.Lib.StableHlo.Run

set_option maxRecDepth 16384

noncomputable section

namespace Cert.KernelIdeal.Walk0

open Idealize.ShloMosaic Idealize.ShloMosaic.TcCoe Idealize.SL.Sem Idealize.ShloMosaic.StableHlo
open Cert.KernelIdeal Cert.KernelIdeal.Gen Cert.KernelIdeal.Layer Cert.KernelIdeal.Take Cert.KernelIdeal.Keep
open Cert.KernelIdeal.WalkBase

variable (m : (ℓ : Loc nD τ sig) → Buf (Elt Ideal) ℓ) (ρ : Dev nD → PrngReg)

/-- The layer's weight, cut out of the weight stack as launched. -/
theorem weight_at (c : Dev nD) :
    W1 m ρ c (Proc.devRef .tc main_v5) = weight0 (m ((c : Thread nD τ).loc main_arg3)) := by
  have e : W1 m ρ c (Proc.devRef .tc main_v5) = weight0 (W0 m ρ c (Proc.devRef .tc main_arg3)) := by
    show StableHlo.after hostOps0 (W0 m ρ c) (Proc.devRef .tc main_v5) = _
    after_results
    rfl
  exact e.trans (congrArg weight0 (through_arg3_0 m ρ c))

/-- The product region leaves the input times the weight. -/
theorem product_at (c : Dev nD) (h : FVec Ideal S50000x128 .f32)
    (hin : W0 m ρ c (Proc.devRef .tc main_arg0) = h) :
    W2 m ρ c (Proc.devRef .tc main_v6) = Cert.Spec.mm h (weight0 (m ((c : Thread nD τ).loc main_arg3))) :=
  (W2_arr m ρ c 2).trans ((Product0.final (V1 m ρ) c).trans (by
    show Cert.Spec.mm (W1 m ρ c (Proc.devRef .tc main_arg0)) (W1 m ρ c (Proc.devRef .tc main_v5)) = _
    exact congrArg₂ Cert.Spec.mm ((through_arg0_1 m ρ c).trans hin) (weight_at m ρ c)))

/-- The gather stretch read from any contents at its entry: the choice, by the range mask of the source row found there,
    between the gathered rows of the product found there and the fill. -/
theorem gathered_read (V : Valuation τ sig (Elt Ideal)) :
    StableHlo.after hostOps1 V (Proc.devRef .tc main_v7)
      = select (inRange (V (Proc.devRef .tc main_v1)))
          (Host.gather gather_S50000x128_S600000x1_S600000x128_1_0_n_n_0_1_1128 (V (Proc.devRef .tc main_v6))
            (idxCol (V (Proc.devRef .tc main_v1))))
          (broadcastInDim S600000x128 ![] bcast_S_S600000x128 (constant (F := Ideal) S_ .f32 0x7FC00000#32)) := by
  after_results_simp
  simp only [TRef.ofBuf_toBuf]
  simp only [TRef.toBuf, TRef.ofBuf, cast_eq]
  rfl

/-- The guarded gather leaves the product's rows at the edges' source nodes: with the source nodes in range the guard
    chooses the gathered row everywhere. -/
theorem rows_at (c : Dev nD) (h : FVec Ideal S50000x128 .f32)
    (hin : W0 m ρ c (Proc.devRef .tc main_arg0) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W3 m ρ c (Proc.devRef .tc main_v7)
      = rows (m ((c : Thread nD τ).loc main_arg1)) (Cert.Spec.mm h (weight0 (m ((c : Thread nD τ).loc main_arg3)))) := by
  have e : W3 m ρ c (Proc.devRef .tc main_v7)
      = select (inRange (W2 m ρ c (Proc.devRef .tc main_v1)))
          (Host.gather gather_S50000x128_S600000x1_S600000x128_1_0_n_n_0_1_1128 (W2 m ρ c (Proc.devRef .tc main_v6))
            (idxCol (W2 m ρ c (Proc.devRef .tc main_v1))))
          (broadcastInDim S600000x128 ![] bcast_S_S600000x128 (constant (F := Ideal) S_ .f32 0x7FC00000#32)) :=
    gathered_read (W2 m ρ c)
  have es : W2 m ρ c (Proc.devRef .tc main_v1) = src (m ((c : Thread nD τ).loc main_arg1)) :=
    (through_v1_2 m ρ c).trans (src_at1 m ρ c)
  rw [e, es, product_at m ρ c h hin, select_gather _ hlo hhi]
  rfl

/-- The message region leaves the messages of the gathered rows and the edge features as launched. -/
theorem messages_at (c : Dev nD) (h : FVec Ideal S50000x128 .f32)
    (hin : W0 m ρ c (Proc.devRef .tc main_arg0) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W4 m ρ c (Proc.devRef .tc main_v8)
      = Cert.Spec.msg (rows (m ((c : Thread nD τ).loc main_arg1)) (Cert.Spec.mm h (weight0 (m ((c : Thread nD τ).loc main_arg3)))))
          (m ((c : Thread nD τ).loc main_arg2)) :=
  (W4_arr m ρ c 2).trans ((Message1.final (V3 m ρ) c).trans (by
    show Cert.Spec.msg (W3 m ρ c (Proc.devRef .tc main_v7)) (W3 m ρ c (Proc.devRef .tc main_arg2)) = _
    exact congrArg₂ Cert.Spec.msg (rows_at m ρ c h hin hlo hhi) (through_arg2_3 m ρ c)))

/-- The per-node sum of the messages, from zero, at the edges' destination nodes. -/
theorem summed_at (c : Dev nD) (h : FVec Ideal S50000x128 .f32)
    (hin : W0 m ρ c (Proc.devRef .tc main_arg0) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W5 m ρ c (Proc.devRef .tc main_v11)
      = agg (m ((c : Thread nD τ).loc main_arg1))
          (Cert.Spec.msg (rows (m ((c : Thread nD τ).loc main_arg1)) (Cert.Spec.mm h (weight0 (m ((c : Thread nD τ).loc main_arg3)))))
            (m ((c : Thread nD τ).loc main_arg2))) := by
  have e : W5 m ρ c (Proc.devRef .tc main_v11)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (W4 m ρ c (Proc.devRef .tc main_v3)))
          (W4 m ρ c (Proc.devRef .tc main_v8)) := by
    show StableHlo.after hostOps2 (W4 m ρ c) (Proc.devRef .tc main_v11) = _
    after_results
  have ed : W4 m ρ c (Proc.devRef .tc main_v3) = dst (m ((c : Thread nD τ).loc main_arg1)) :=
    (through_v3_4 m ρ c).trans (dst_at1 m ρ c)
  rw [e, ed, messages_at m ρ c h hin hlo hhi]
  rfl

/-- The layer's bias row, cut out of the bias table as launched. -/
theorem bias_at (c : Dev nD) :
    W5 m ρ c (Proc.devRef .tc main_v14) = bias0 (m ((c : Thread nD τ).loc main_arg4)) := by
  have e : W5 m ρ c (Proc.devRef .tc main_v14) = bias0 (W4 m ρ c (Proc.devRef .tc main_arg4)) := by
    show StableHlo.after hostOps2 (W4 m ρ c) (Proc.devRef .tc main_v14) = _
    after_results
    rfl
  exact e.trans (congrArg bias0 (through_arg4_4 m ρ c))

/-- THE LAYER: the update region leaves the layer's function of its input and of the edge list, the edge features, the
    weight stack and the bias table as launched. -/
theorem out (c : Dev nD) (h : FVec Ideal S50000x128 .f32)
    (hin : W0 m ρ c (Proc.devRef .tc main_arg0) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W6 m ρ c (Proc.devRef .tc main_v15)
      = layerRelu h (m ((c : Thread nD τ).loc main_arg1)) (m ((c : Thread nD τ).loc main_arg2))
          (weight0 (m ((c : Thread nD τ).loc main_arg3))) (bias0 (m ((c : Thread nD τ).loc main_arg4))) :=
  (W6_arr m ρ c 3).trans ((Update2.final (V5 m ρ) c).trans (by
    show Cert.Spec.updRelu (W5 m ρ c (Proc.devRef .tc main_v11)) (W5 m ρ c (Proc.devRef .tc main_v14))
      (W5 m ρ c (Proc.devRef .tc main_arg0)) = _
    rw [summed_at m ρ c h hin hlo hhi, bias_at m ρ c, (through_arg0_5 m ρ c).trans hin]
    rfl))

end Cert.KernelIdeal.Walk0

end
-- ==== Proof.Region3.lean ====
/-
  A layer's product, from blocks to the whole array.

  The region runs over ten points. At point `t` it reads rows `5000 t … 5000 t + 4999` of the feature array (50000 rows of
  128) and the whole 128 × 128 weight, and writes rows `5000 t …` of the product array. Over the extended reals the body's
  output block at (p, q) is the sum over k of feature-block (p, k) times weight-block (k, q): the contraction's index is
  its one coordinate, the left operand is read at (p, k) and the right at (k, q), the accumulator is the zero word, and
  the change of format before the contraction is the identity there. The feature block's row p is row `5000 t + p` of the
  array and the weight's block is the weight, so what point `t` writes back is block `t` of the array's product with the
  weight. Every row r lies in the block of point `r / 5000`, and every point writes its block back, so the product array
  ends as that product everywhere.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Product3

open Idealize.ShloMosaic.ValueIdx

/-- The zero offsets of a whole-block access, as the constant function. -/
theorem zero_offsets : (![0, 0] : Fin 2 → Nat) = fun _ => 0 := funext fun a => by fin_cases a <;> rfl

/-! ## The product at an index -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction's coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction's coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's output block at (p, q): the sum over k of the first block at (p, k) times the second at (k, q). The
    accumulator is the zero word, and narrowing the format and recasting a block to its own shape change nothing over
    the extended reals. -/
theorem payload_apply (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The blocks as rows of the arrays -/

/-- The index maps, decided over the grid: the feature and product windows' block at point `t` is block row `t`, the
    weight's is the one whole block. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point `t` is rows `5000 t …` of the feature array. -/
theorem features_block_apply (c : Dev nD) (t : Fin cfg3.N) (x : S5000x128.Idx) (i : S50000x128.Idx)
    (h0 : (i 0).val = 5000 * t.val + (x 0).val) (h1 : (i 1).val = (x 1).val) :
    (iblk3 V c 0 t : Vec Ideal S5000x128 .f32) x = (V c main_v15 : S50000x128.Idx → EReal) i := by
  obtain ⟨e0, e1, -⟩ := index_facts t
  unfold iblk3
  rw [View.read_apply]
  show V c main_v15 _ = V c main_v15 _
  congr 1
  funext a
  apply Fin.ext
  match a with
  | ⟨0, _⟩ => show win3_0.index t (0 : Fin 2) * 5000 + 1 * (x 0).val = (i 0).val; omega
  | ⟨1, _⟩ => show win3_0.index t (1 : Fin 2) * 128 + 1 * (x 1).val = (i 1).val; omega

/-- The weight window's block at every point is the whole weight. -/
theorem weight_block_apply (c : Dev nD) (t : Fin cfg3.N) (x : S128x128.Idx) (i : S128x128.Idx)
    (h0 : (i 0).val = (x 0).val) (h1 : (i 1).val = (x 1).val) :
    (iblk3 V c 1 t : Vec Ideal S128x128 .f32) x = (V c main_v17 : S128x128.Idx → EReal) i := by
  obtain ⟨-, -, e0, e1, -⟩ := index_facts t
  unfold iblk3
  rw [View.read_apply]
  show V c main_v17 _ = V c main_v17 _
  congr 1
  funext a
  apply Fin.ext
  match a with
  | ⟨0, _⟩ => show win3_1.index t (0 : Fin 2) * 128 + 1 * (x 0).val = (i 0).val; omega
  | ⟨1, _⟩ => show win3_1.index t (1 : Fin 2) * 128 + 1 * (x 1).val = (i 1).val; omega

/-- The product window's block at point `t` sits at rows `5000 t …` of the product array. -/
theorem product_block_emb (t : Fin cfg3.N) (y : S5000x128.Idx) :
    ((((cfg3.win 2).blk t).view.emb y : S50000x128.Idx) 0).val = 5000 * t.val + (y 0).val
    ∧ ((((cfg3.win 2).blk t).view.emb y : S50000x128.Idx) 1).val = (y 1).val := by
  obtain ⟨-, -, -, -, e0, e1⟩ := index_facts t
  constructor
  · show win3_2.index t (0 : Fin 2) * 5000 + 1 * (y 0).val = _; omega
  · show win3_2.index t (1 : Fin 2) * 128 + 1 * (y 1).val = _; omega

/-! ## What a point writes back, and the whole array -/

/-- One element of the body's output block is the product at the array index it sits at, whenever the row of the feature
    block and the column of the weight block it reads are that index's row and column of the arrays. -/
theorem block_value (x0 : Vec Ideal S5000x128 .f32) (x1 : Vec Ideal S128x128 .f32)
    (h : S50000x128.Idx → EReal) (w : S128x128.Idx → EReal) (y : S5000x128.Idx) (i : S50000x128.Idx)
    (hrow : ∀ k : Fin 128, x0 (ix2 (y 0) k) = h (ix2 (i 0) k))
    (hcol : ∀ k : Fin 128, x1 (ix2 k (y 1)) = w (ix2 k (i 1))) :
    k3_pay1 (F := Ideal) x0 x1 y = Cert.Spec.mm h w i := by
  obtain ⟨p, q, rfl⟩ : ∃ (p : Fin 5000) (q : Fin 128), y = ix2 p q := ⟨y 0, y 1, eq_ix2 y⟩
  rw [payload_apply]
  show _ = ∑ k : Fin 128, h (ix2 (i 0) k) * w (ix2 k (i 1))
  exact Finset.sum_congr rfl fun k _ => by rw [hrow k, hcol k]

/-- What point `t` writes back is block `t` of the product of the feature array with the weight. -/
theorem flushed_eq (c : Dev nD) (t : Fin cfg3.N) :
    (dat3 (F := Ideal) V c).flushed 2 t
      = ((cfg3.win 2).blk t).view.read (Elt Ideal) (Cert.Spec.mm (V c main_v15) (V c main_v17)) := by
  show (cfg3.win 2).cut (grid3.coords t) ((dat3 (F := Ideal) V c).after 2 t) = _
  rw [after3_2]
  unfold out3_2
  rw [View.canon_unit_zero zero_offsets]
  simp only [View.ld_unit_zero (S := S5000x128) zero_offsets, View.ld_unit_zero (S := S128x128) zero_offsets]
  funext y
  obtain ⟨r0, r1⟩ := product_block_emb t y
  refine block_value _ _ _ _ y _ (fun k => ?_) (fun k => ?_)
  · exact features_block_apply V c t _ _ (by show _ = 5000 * t.val + (y 0).val; exact r0) rfl
  · exact weight_block_apply V c t _ _ rfl (by show _ = (y 1).val; exact r1)

/-- An index of the product array is in point `t`'s block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v18).slice (win3_2.rect t)).set ↔ _
  rw [View.set_slice_whole, Rect.mem_set_unit]
  exact Iff.rfl

/-- Every row of the product array is in the block of the point numbered by the row divided by the rows per block. -/
theorem covered (i : S50000x128.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  let t : Fin cfg3.N := ⟨(i 0).val / 5000, by omega⟩
  have ht : t.val = (i 0).val / 5000 := rfl
  obtain ⟨-, -, -, -, e0, e1⟩ := index_facts t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The product array after the region: the feature array times the weight, index by index. -/
theorem final (c : Dev nD) :
    (dat3 (F := Ideal) V c).arrAt 2 cfg3.N = Cert.Spec.mm (V c main_v15) (V c main_v17) :=
  (dat3 (F := Ideal) V c).arrAt_eq_of_cover 2 (Cert.Spec.mm (V c main_v15) (V c main_v17))
    (fun t _ => flushed_eq V c t) covered

end Cert.KernelIdeal.Product3

end
-- ==== Proof.Region4.lean ====
/-
  The message of every edge, read off the edge arrays row block by row block.

  The two edge arrays (the gathered rows and the edges' own features) and the result have 600000 rows of 128. The
  grid has 100 points; point t stages rows 6000 t … 6000 t + 5999 of each input, adds the two blocks entry by entry,
  clips the sum at zero, and writes the block back to the same rows of the result. The 100 row blocks tile the
  result, so after the last point the result holds, at every index, the clipped sum of the two inputs at that index.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Message4

open Idealize.ShloMosaic.ValueIdx

/-- The body's one store starts at row 0, column 0 of the staged block. -/
theorem origin : (![0, 0] : Fin 2 → Nat) = fun _ => 0 := funext fun a => by fin_cases a <;> rfl

/-- The stored block at an entry: the two staged blocks added there, clipped at zero. -/
theorem payload_apply (x0 x1 : Vec Ideal S6000x128 .f32) (j : S6000x128.Idx) :
    k4_pay1 (F := Ideal) x0 x1 j = max (x0 j + x1 j) 0 := by
  unfold k4_pay1
  simp only [shapeCast_self]
  show max (x0 j + x1 j) (Ideal.ofBits .f32 0x00000000#32) = _
  rw [Ideal.ofBits_zero_f32]

/-- The message at an index from the two arrays read at indices that are both that index. -/
theorem msg_of_reads (xs ea : S600000x128.Idx → EReal) (k0 k1 k : S600000x128.Idx) (h0 : k0 = k) (h1 : k1 = k) :
    max (xs k0 + ea k1) 0 = Cert.Spec.msg xs ea k := by
  subst h0 h1; rfl

/-- Where each window's block sits at grid point t: row block t, the one column block (decided over the grid). -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is row block t of the clipped sum of the two edge arrays. -/
theorem flushed_eq (c : Dev nD) (t : Fin cfg4.N) :
    (dat4 (F := Ideal) V c).flushed 2 t
      = ((cfg4.win 2).blk t).view.read (Elt Ideal) (Cert.Spec.msg (V c main_v19) (V c main_arg2)) := by
  show (cfg4.win 2).cut (grid4.coords t) ((dat4 (F := Ideal) V c).after 2 t) = _
  rw [after4_2]
  unfold out4_2
  rw [View.canon_unit_zero origin]
  simp only [View.ld_unit_zero (S := S6000x128) origin]
  obtain ⟨e0, e1, e2, e3, e4, e5⟩ := block_index t
  funext j
  show k4_pay1 (F := Ideal) (iblk4 V c 0 t) (iblk4 V c 1 t) j
    = Cert.Spec.msg (V c main_v19) (V c main_arg2) (((cfg4.win 2).blk t).view.emb j)
  refine (payload_apply _ _ _).trans ?_
  have h0 : ((cfg4.win 0).blk t).view.emb j = ((cfg4.win 2).blk t).view.emb j := by
    funext a; apply Fin.ext
    match a with
    | ⟨0, _⟩ => show win4_0.index t (0 : Fin 2) * 6000 + 1 * (j 0).val = win4_2.index t (0 : Fin 2) * 6000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 6000 + 1 * (j 0).val = win4_2.index t (0 : Fin 2) * 6000 + 1 * (j 0).val; omega
    | ⟨1, _⟩ => show win4_1.index t (1 : Fin 2) * 128 + 1 * (j 1).val = win4_2.index t (1 : Fin 2) * 128 + 1 * (j 1).val; omega
  exact msg_of_reads (V c main_v19) (V c main_arg2) _ _ _ h0 h1

/-- An index of the result lies in point t's block iff each coordinate lies in the block's range on its axis. -/
theorem mem_block (t : Fin cfg4.N) (i : S600000x128.Idx) :
    i ∈ ((cfg4.win 2).blk t).view.set ↔ ∀ a : Fin 2, win4_2.index t a * S6000x128.size a ≤ (i a).val
      ∧ (i a).val < win4_2.index t a * S6000x128.size a + S6000x128.size a := by
  show i ∈ ((View.whole main_v20).slice (win4_2.rect t)).set ↔ _
  rw [View.set_slice_whole, Rect.mem_set_unit]
  exact Iff.rfl

/-- Every index of the result is written back by some point: row r by point r / 6000. -/
theorem covered (i : S600000x128.Idx) :
    ∃ t : Fin cfg4.N, (cfg4.win 2).flush t = true ∧ i ∈ ((cfg4.win 2).blk t).view.set := by
  have hN : cfg4.N = 100 := N_4
  have hi0 : (i 0).val < 600000 := (i 0).isLt
  have hi1 : (i 1).val < 128 := (i 1).isLt
  obtain ⟨t, ht⟩ : ∃ t : Fin cfg4.N, t.val = (i 0).val / 6000 := ⟨⟨(i 0).val / 6000, by omega⟩, rfl⟩
  obtain ⟨-, -, -, -, e4, e5⟩ := block_index t
  refine ⟨t, flush4_2 t, ?_⟩
  rw [mem_block]
  intro a
  match a with
  | ⟨0, _⟩ => show win4_2.index t (0 : Fin 2) * 6000 ≤ (i 0).val ∧ (i 0).val < win4_2.index t (0 : Fin 2) * 6000 + 6000; omega
  | ⟨1, _⟩ => show win4_2.index t (1 : Fin 2) * 128 ≤ (i 1).val ∧ (i 1).val < win4_2.index t (1 : Fin 2) * 128 + 128; omega

/-- After the region the result array holds the message of every edge. -/
theorem final (c : Dev nD) :
    (dat4 (F := Ideal) V c).arrAt 2 cfg4.N = Cert.Spec.msg (V c main_v19) (V c main_arg2) :=
  (dat4 (F := Ideal) V c).arrAt_eq_of_cover 2 (Cert.Spec.msg (V c main_v19) (V c main_arg2))
    (fun t _ => flushed_eq V c t) covered

end Cert.KernelIdeal.Message4

end
-- ==== Proof.Region5.lean ====
/-
  A middle layer's update, from blocks to the array: the output array after the region is the layer's update
  of the three arrays the region reads — the summed messages plus the bias row, clipped at zero, plus the layer's input —
  index by index. The body's value at an index of a block, the rows of each array a block holds, what a point writes
  back, and the blocks' tiling of the 50000 rows by 5000.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

namespace Cert.KernelIdeal.Update5

open Idealize.ShloMosaic.ValueIdx

/-- The body reads and writes whole staging blocks: every access starts at offset (0, 0). -/
theorem off_zero : (![0, 0] : Fin 2 → Nat) = fun _ => 0 := funext fun a => by fin_cases a <;> rfl

/-! ## The body's value at an index of a block -/

/-- The bias row, stretched over the rows of a block, read at (p, q) is the row's entry q. -/
theorem row_apply (x1 : Vec Ideal S1x128 .f32) (h : S1x128.Broadcasts S5000x128) (p : Fin 5000) (q : Fin 128) :
    broadcastTo S5000x128 x1 h (ix2 p q) = x1 (ix2 0 q) := by
  refine broadcastTo_apply x1 h (ix2 p q) (ix2 0 q) fun a => ?_
  match a with
  | ⟨0, _⟩ => rfl
  | ⟨1, _⟩ => rfl

/-- What the body stores at (p, q) of the output block: the summed messages there plus the bias at column q, clipped
    at zero, plus the residual there. -/
theorem pay_apply (x0 : Vec Ideal S5000x128 .f32) (x1 : Vec Ideal S1x128 .f32) (x2 : Vec Ideal S5000x128 .f32)
    (p : Fin 5000) (q : Fin 128) :
    k5_pay1 x0 x1 x2 (ix2 p q) = max (x0 (ix2 p q) + x1 (ix2 0 q)) 0 + x2 (ix2 p q) := by
  unfold k5_pay1
  simp only [shapeCast_self]
  rw [addf_apply, maximumf_apply, addf_apply, broadcast_apply, row_apply]
  exact congrArg (fun z => max (x0 (ix2 p q) + x1 (ix2 0 q)) z + x2 (ix2 p q)) Ideal.ofBits_zero_f32

/-! ## Where each window's block sits -/

/-- The block indices over the grid: at point t the three row-blocked windows are at block (t, 0), the bias window at
    block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The summed messages' block at point t is rows 5000 t … 5000 t + 4999 of their array. -/
theorem sums_blk (c : Dev nD) (t : Fin cfg5.N) (y : S5000x128.Idx) (i : S50000x128.Idx)
    (h0 : (i 0).val = 5000 * t.val + (y 0).val) (h1 : (i 1).val = (y 1).val) :
    (iblk5 V c 0 t : Vec Ideal S5000x128 .f32) y = (V c main_v23 : S50000x128.Idx → Elt Ideal .f32) i := by
  obtain ⟨e0, e1, -⟩ := idx_facts t
  unfold iblk5
  rw [View.read_apply]
  show V c main_v23 _ = V c main_v23 _
  congr 1
  funext a
  apply Fin.ext
  match a with
  | ⟨0, _⟩ => show win5_0.index t 0 * 5000 + 1 * (y 0).val = (i 0).val; omega
  | ⟨1, _⟩ => show win5_0.index t 1 * 128 + 1 * (y 1).val = (i 1).val; omega

/-- The bias window's block is the whole row at every point. -/
theorem bias_blk (c : Dev nD) (t : Fin cfg5.N) (y : S1x128.Idx) (k : S1x128.Idx)
    (h0 : (k 0).val = (y 0).val) (h1 : (k 1).val = (y 1).val) :
    (iblk5 V c 1 t : Vec Ideal S1x128 .f32) y = (V c main_v26 : S1x128.Idx → Elt Ideal .f32) k := by
  obtain ⟨-, -, e0, e1, -⟩ := idx_facts t
  unfold iblk5
  rw [View.read_apply]
  show V c main_v26 _ = V c main_v26 _
  congr 1
  funext a
  apply Fin.ext
  match a with
  | ⟨0, _⟩ => show win5_1.index t 0 * 1 + 1 * (y 0).val = (k 0).val; omega
  | ⟨1, _⟩ => show win5_1.index t 1 * 128 + 1 * (y 1).val = (k 1).val; omega

/-- The residual's block at point t is rows 5000 t … 5000 t + 4999 of its array. -/
theorem resid_blk (c : Dev nD) (t : Fin cfg5.N) (y : S5000x128.Idx) (i : S50000x128.Idx)
    (h0 : (i 0).val = 5000 * t.val + (y 0).val) (h1 : (i 1).val = (y 1).val) :
    (iblk5 V c 2 t : Vec Ideal S5000x128 .f32) y = (V c main_v15 : S50000x128.Idx → Elt Ideal .f32) i := by
  obtain ⟨-, -, -, -, e0, e1, -⟩ := idx_facts t
  unfold iblk5
  rw [View.read_apply]
  show V c main_v15 _ = V c main_v15 _
  congr 1
  funext a
  apply Fin.ext
  match a with
  | ⟨0, _⟩ => show win5_2.index t 0 * 5000 + 1 * (y 0).val = (i 0).val; omega
  | ⟨1, _⟩ => show win5_2.index t 1 * 128 + 1 * (y 1).val = (i 1).val; omega

/-! ## What a point writes back -/

/-- Point t writes back block t of the layer's update of the three arrays as the region finds them. -/
theorem flushed_eq (c : Dev nD) (t : Fin cfg5.N) :
    (dat5 (F := Ideal) V c).flushed 3 t = ((cfg5.win 3).blk t).view.read (Elt Ideal)
      (Cert.Spec.updRelu (V c main_v23) (V c main_v26) (V c main_v15)) := by
  show (cfg5.win 3).cut (grid5.coords t) ((dat5 V c).after 3 t) = _
  rw [after5_3]
  unfold out5_3
  rw [View.canon_unit_zero off_zero]
  simp only [View.ld_unit_zero (S := S5000x128) off_zero, View.ld_unit_zero (S := S1x128) off_zero]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q)
    = Cert.Spec.updRelu (V c main_v23) (V c main_v26) (V c main_v15) (((cfg5.win 3).blk t).view.emb (ix2 p q))
  refine (pay_apply _ _ _ p q).trans ?_
  have hi0 : ((((cfg5.win 3).blk t).view.emb (ix2 p q) : S50000x128.Idx) 0).val = 5000 * t.val + p.val := by
    show win5_3.index t 0 * 5000 + 1 * p.val = _; omega
  have hi1 : ((((cfg5.win 3).blk t).view.emb (ix2 p q) : S50000x128.Idx) 1).val = q.val := by
    show win5_3.index t 1 * 128 + 1 * q.val = _; omega
  rw [sums_blk V c t (ix2 p q) _ hi0 hi1, resid_blk V c t (ix2 p q) _ hi0 hi1,
    bias_blk V c t (ix2 0 q) (ix2 0 ((((cfg5.win 3).blk t).view.emb (ix2 p q) : S50000x128.Idx) 1)) rfl hi1]
  rfl

/-! ## The blocks tile the array -/

/-- An index of the array is in point t's block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v27).slice (win5_3.rect t)).set ↔ _
  rw [View.set_slice_whole, Rect.mem_set_unit]
  exact Iff.rfl

/-- Row r lies in the block of point r / 5000, and every point writes its block back. -/
theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_3 _, ?_⟩
  rw [mem_blk]
  obtain ⟨-, -, -, -, -, -, e0, e1⟩ := idx_facts ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e0]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e1]; omega

/-! ## The array after the region -/

/-- The output array after the region is the layer's update of the three arrays as the region finds them. -/
theorem final (c : Dev nD) :
    (dat5 (F := Ideal) V c).arrAt 3 cfg5.N = Cert.Spec.updRelu (V c main_v23) (V c main_v26) (V c main_v15) :=
  (dat5 (F := Ideal) V c).arrAt_eq_of_cover 3 _ (fun t _ => flushed_eq V c t) cover

end Cert.KernelIdeal.Update5

end
-- ==== Proof.Walk1.lean ====
/-
  One layer, walked through the program: from the layer's input array to its output array.

  The layer's stretch of the program is six steps. A host stretch cuts the layer's weight out of the weight stack. A
  kernel region multiplies the input by it. A host stretch gathers the product's rows at the edges' source nodes, with
  a guard that does nothing when the source nodes are in range. A kernel region forms the messages. A host stretch
  sums the messages into their destination nodes and cuts the layer's bias row out of the bias table. A kernel region
  updates. Each step's result buffer is read off the fold of buffer contents at the step's exit boundary: a region's
  output array is the whole-array function its blocks tile, a host operation's result is its function of its operands'
  contents at the stretch's entry, and every operand is either the previous step's result or a buffer nothing has
  written since it was made.
-/
import proofs.«424701_j75024488726867_1_alg».proof.Proof.Gen.KernelIdeal.Frame
import proofs.«424701_j75024488726867_1_alg».proof.Proof.Layer
import proofs.«424701_j75024488726867_1_alg».proof.Proof.WalkBase
import proofs.«424701_j75024488726867_1_alg».proof.Proof.Region3
import proofs.«424701_j75024488726867_1_alg».proof.Proof.Region4
import proofs.«424701_j75024488726867_1_alg».proof.Proof.Region5
import proofs.«424701_j75024488726867_1_alg».proof.Proof.Keep_v1
import proofs.«424701_j75024488726867_1_alg».proof.Proof.Keep_v3
import proofs.«424701_j75024488726867_1_alg».proof.Proof.Keep_arg0
import proofs.«424701_j75024488726867_1_alg».proof.Proof.Keep_arg2
import proofs.«424701_j75024488726867_1_alg».proof.Proof.Keep_arg3
import proofs.«424701_j75024488726867_1_alg».proof.Proof.Keep_arg4
import proofs.«424701_j75024488726867_1_alg».proof.Proof.Keep_v15
import proofs.«424701_j75024488726867_1_alg».proof.Proof.Keep_v27
import proofs.«424701_j75024488726867_1_alg».proof.Proof.LibTypedRef
import Idealize.ShloMosaic.Lib.StableHlo.Run

set_option maxRecDepth 16384

noncomputable section

namespace Cert.KernelIdeal.Walk1

open Idealize.ShloMosaic Idealize.ShloMosaic.TcCoe Idealize.SL.Sem Idealize.ShloMosaic.StableHlo
open Cert.KernelIdeal Cert.KernelIdeal.Gen Cert.KernelIdeal.Layer Cert.KernelIdeal.Take Cert.KernelIdeal.Keep
open Cert.KernelIdeal.WalkBase

variable (m : (ℓ : Loc nD τ sig) → Buf (Elt Ideal) ℓ) (ρ : Dev nD → PrngReg)

/-- The layer's weight, cut out of the weight stack as launched. -/
theorem weight_at (c : Dev nD) :
    W7 m ρ c (Proc.devRef .tc main_v17) = weight1 (m ((c : Thread nD τ).loc main_arg3)) := by
  have e : W7 m ρ c (Proc.devRef .tc main_v17) = weight1 (W6 m ρ c (Proc.devRef .tc main_arg3)) := by
    show StableHlo.after hostOps3 (W6 m ρ c) (Proc.devRef .tc main_v17) = _
    after_results
    rfl
  exact e.trans (congrArg weight1 (through_arg3_6 m ρ c))

/-- The product region leaves the input times the weight. -/
theorem product_at (c : Dev nD) (h : FVec Ideal S50000x128 .f32)
    (hin : W6 m ρ c (Proc.devRef .tc main_v15) = h) :
    W8 m ρ c (Proc.devRef .tc main_v18) = Cert.Spec.mm h (weight1 (m ((c : Thread nD τ).loc main_arg3))) :=
  (W8_arr m ρ c 2).trans ((Product3.final (V7 m ρ) c).trans (by
    show Cert.Spec.mm (W7 m ρ c (Proc.devRef .tc main_v15)) (W7 m ρ c (Proc.devRef .tc main_v17)) = _
    exact congrArg₂ Cert.Spec.mm ((through_v15_7 m ρ c).trans hin) (weight_at m ρ c)))

/-- The gather stretch read from any contents at its entry: the choice, by the range mask of the source row found there,
    between the gathered rows of the product found there and the fill. -/
theorem gathered_read (V : Valuation τ sig (Elt Ideal)) :
    StableHlo.after hostOps4 V (Proc.devRef .tc main_v19)
      = select (inRange (V (Proc.devRef .tc main_v1)))
          (Host.gather gather_S50000x128_S600000x1_S600000x128_1_0_n_n_0_1_1128 (V (Proc.devRef .tc main_v18))
            (idxCol (V (Proc.devRef .tc main_v1))))
          (broadcastInDim S600000x128 ![] bcast_S_S600000x128 (constant (F := Ideal) S_ .f32 0x7FC00000#32)) := by
  after_results_simp
  simp only [TRef.ofBuf_toBuf]
  simp only [TRef.toBuf, TRef.ofBuf, cast_eq]
  rfl

/-- The guarded gather leaves the product's rows at the edges' source nodes: with the source nodes in range the guard
    chooses the gathered row everywhere. -/
theorem rows_at (c : Dev nD) (h : FVec Ideal S50000x128 .f32)
    (hin : W6 m ρ c (Proc.devRef .tc main_v15) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W9 m ρ c (Proc.devRef .tc main_v19)
      = rows (m ((c : Thread nD τ).loc main_arg1)) (Cert.Spec.mm h (weight1 (m ((c : Thread nD τ).loc main_arg3)))) := by
  have e : W9 m ρ c (Proc.devRef .tc main_v19)
      = select (inRange (W8 m ρ c (Proc.devRef .tc main_v1)))
          (Host.gather gather_S50000x128_S600000x1_S600000x128_1_0_n_n_0_1_1128 (W8 m ρ c (Proc.devRef .tc main_v18))
            (idxCol (W8 m ρ c (Proc.devRef .tc main_v1))))
          (broadcastInDim S600000x128 ![] bcast_S_S600000x128 (constant (F := Ideal) S_ .f32 0x7FC00000#32)) :=
    gathered_read (W8 m ρ c)
  have es : W8 m ρ c (Proc.devRef .tc main_v1) = src (m ((c : Thread nD τ).loc main_arg1)) :=
    (through_v1_8 m ρ c).trans (src_at1 m ρ c)
  rw [e, es, product_at m ρ c h hin, select_gather _ hlo hhi]
  rfl

/-- The message region leaves the messages of the gathered rows and the edge features as launched. -/
theorem messages_at (c : Dev nD) (h : FVec Ideal S50000x128 .f32)
    (hin : W6 m ρ c (Proc.devRef .tc main_v15) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W10 m ρ c (Proc.devRef .tc main_v20)
      = Cert.Spec.msg (rows (m ((c : Thread nD τ).loc main_arg1)) (Cert.Spec.mm h (weight1 (m ((c : Thread nD τ).loc main_arg3)))))
          (m ((c : Thread nD τ).loc main_arg2)) :=
  (W10_arr m ρ c 2).trans ((Message4.final (V9 m ρ) c).trans (by
    show Cert.Spec.msg (W9 m ρ c (Proc.devRef .tc main_v19)) (W9 m ρ c (Proc.devRef .tc main_arg2)) = _
    exact congrArg₂ Cert.Spec.msg (rows_at m ρ c h hin hlo hhi) (through_arg2_9 m ρ c)))

/-- The per-node sum of the messages, from zero, at the edges' destination nodes. -/
theorem summed_at (c : Dev nD) (h : FVec Ideal S50000x128 .f32)
    (hin : W6 m ρ c (Proc.devRef .tc main_v15) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W11 m ρ c (Proc.devRef .tc main_v23)
      = agg (m ((c : Thread nD τ).loc main_arg1))
          (Cert.Spec.msg (rows (m ((c : Thread nD τ).loc main_arg1)) (Cert.Spec.mm h (weight1 (m ((c : Thread nD τ).loc main_arg3)))))
            (m ((c : Thread nD τ).loc main_arg2))) := by
  have e : W11 m ρ c (Proc.devRef .tc main_v23)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (W10 m ρ c (Proc.devRef .tc main_v3)))
          (W10 m ρ c (Proc.devRef .tc main_v20)) := by
    show StableHlo.after hostOps5 (W10 m ρ c) (Proc.devRef .tc main_v23) = _
    after_results
  have ed : W10 m ρ c (Proc.devRef .tc main_v3) = dst (m ((c : Thread nD τ).loc main_arg1)) :=
    (through_v3_10 m ρ c).trans (dst_at1 m ρ c)
  rw [e, ed, messages_at m ρ c h hin hlo hhi]
  rfl

/-- The layer's bias row, cut out of the bias table as launched. -/
theorem bias_at (c : Dev nD) :
    W11 m ρ c (Proc.devRef .tc main_v26) = bias1 (m ((c : Thread nD τ).loc main_arg4)) := by
  have e : W11 m ρ c (Proc.devRef .tc main_v26) = bias1 (W10 m ρ c (Proc.devRef .tc main_arg4)) := by
    show StableHlo.after hostOps5 (W10 m ρ c) (Proc.devRef .tc main_v26) = _
    after_results
    rfl
  exact e.trans (congrArg bias1 (through_arg4_10 m ρ c))

/-- THE LAYER: the update region leaves the layer's function of its input and of the edge list, the edge features, the
    weight stack and the bias table as launched. -/
theorem out (c : Dev nD) (h : FVec Ideal S50000x128 .f32)
    (hin : W6 m ρ c (Proc.devRef .tc main_v15) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W12 m ρ c (Proc.devRef .tc main_v27)
      = layerRelu h (m ((c : Thread nD τ).loc main_arg1)) (m ((c : Thread nD τ).loc main_arg2))
          (weight1 (m ((c : Thread nD τ).loc main_arg3))) (bias1 (m ((c : Thread nD τ).loc main_arg4))) :=
  (W12_arr m ρ c 3).trans ((Update5.final (V11 m ρ) c).trans (by
    show Cert.Spec.updRelu (W11 m ρ c (Proc.devRef .tc main_v23)) (W11 m ρ c (Proc.devRef .tc main_v26))
      (W11 m ρ c (Proc.devRef .tc main_v15)) = _
    rw [summed_at m ρ c h hin hlo hhi, bias_at m ρ c, (through_v15_11 m ρ c).trans hin]
    rfl))

end Cert.KernelIdeal.Walk1

end
-- ==== Proof.Region6.lean ====
/-
  A layer's product, from blocks to the whole array.

  The region runs over ten points. At point `t` it reads rows `5000 t … 5000 t + 4999` of the feature array (50000 rows of
  128) and the whole 128 × 128 weight, and writes rows `5000 t …` of the product array. Over the extended reals the body's
  output block at (p, q) is the sum over k of feature-block (p, k) times weight-block (k, q): the contraction's index is
  its one coordinate, the left operand is read at (p, k) and the right at (k, q), the accumulator is the zero word, and
  the change of format before the contraction is the identity there. The feature block's row p is row `5000 t + p` of the
  array and the weight's block is the weight, so what point `t` writes back is block `t` of the array's product with the
  weight. Every row r lies in the block of point `r / 5000`, and every point writes its block back, so the product array
  ends as that product everywhere.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Product6

open Idealize.ShloMosaic.ValueIdx

/-- The zero offsets of a whole-block access, as the constant function. -/
theorem zero_offsets : (![0, 0] : Fin 2 → Nat) = fun _ => 0 := funext fun a => by fin_cases a <;> rfl

/-! ## The product at an index -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction's coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction's coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's output block at (p, q): the sum over k of the first block at (p, k) times the second at (k, q). The
    accumulator is the zero word, and narrowing the format and recasting a block to its own shape change nothing over
    the extended reals. -/
theorem payload_apply (x0 : Vec Ideal S5000x128 .f32) (x1 : Vec Ideal S128x128 .f32) (p : Fin 5000) (q : Fin 128) :
    k6_pay1 (F := Ideal) x0 x1 (ix2 p q) = ∑ k : Fin 128, x0 (ix2 p k) * x1 (ix2 k q) := by
  unfold k6_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The blocks as rows of the arrays -/

/-- The index maps, decided over the grid: the feature and product windows' block at point `t` is block row `t`, the
    weight's is the one whole block. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature window's block at point `t` is rows `5000 t …` of the feature array. -/
theorem features_block_apply (c : Dev nD) (t : Fin cfg6.N) (x : S5000x128.Idx) (i : S50000x128.Idx)
    (h0 : (i 0).val = 5000 * t.val + (x 0).val) (h1 : (i 1).val = (x 1).val) :
    (iblk6 V c 0 t : Vec Ideal S5000x128 .f32) x = (V c main_v27 : S50000x128.Idx → EReal) i := by
  obtain ⟨e0, e1, -⟩ := index_facts t
  unfold iblk6
  rw [View.read_apply]
  show V c main_v27 _ = V c main_v27 _
  congr 1
  funext a
  apply Fin.ext
  match a with
  | ⟨0, _⟩ => show win6_0.index t (0 : Fin 2) * 5000 + 1 * (x 0).val = (i 0).val; omega
  | ⟨1, _⟩ => show win6_0.index t (1 : Fin 2) * 128 + 1 * (x 1).val = (i 1).val; omega

/-- The weight window's block at every point is the whole weight. -/
theorem weight_block_apply (c : Dev nD) (t : Fin cfg6.N) (x : S128x128.Idx) (i : S128x128.Idx)
    (h0 : (i 0).val = (x 0).val) (h1 : (i 1).val = (x 1).val) :
    (iblk6 V c 1 t : Vec Ideal S128x128 .f32) x = (V c main_v29 : S128x128.Idx → EReal) i := by
  obtain ⟨-, -, e0, e1, -⟩ := index_facts t
  unfold iblk6
  rw [View.read_apply]
  show V c main_v29 _ = V c main_v29 _
  congr 1
  funext a
  apply Fin.ext
  match a with
  | ⟨0, _⟩ => show win6_1.index t (0 : Fin 2) * 128 + 1 * (x 0).val = (i 0).val; omega
  | ⟨1, _⟩ => show win6_1.index t (1 : Fin 2) * 128 + 1 * (x 1).val = (i 1).val; omega

/-- The product window's block at point `t` sits at rows `5000 t …` of the product array. -/
theorem product_block_emb (t : Fin cfg6.N) (y : S5000x128.Idx) :
    ((((cfg6.win 2).blk t).view.emb y : S50000x128.Idx) 0).val = 5000 * t.val + (y 0).val
    ∧ ((((cfg6.win 2).blk t).view.emb y : S50000x128.Idx) 1).val = (y 1).val := by
  obtain ⟨-, -, -, -, e0, e1⟩ := index_facts t
  constructor
  · show win6_2.index t (0 : Fin 2) * 5000 + 1 * (y 0).val = _; omega
  · show win6_2.index t (1 : Fin 2) * 128 + 1 * (y 1).val = _; omega

/-! ## What a point writes back, and the whole array -/

/-- One element of the body's output block is the product at the array index it sits at, whenever the row of the feature
    block and the column of the weight block it reads are that index's row and column of the arrays. -/
theorem block_value (x0 : Vec Ideal S5000x128 .f32) (x1 : Vec Ideal S128x128 .f32)
    (h : S50000x128.Idx → EReal) (w : S128x128.Idx → EReal) (y : S5000x128.Idx) (i : S50000x128.Idx)
    (hrow : ∀ k : Fin 128, x0 (ix2 (y 0) k) = h (ix2 (i 0) k))
    (hcol : ∀ k : Fin 128, x1 (ix2 k (y 1)) = w (ix2 k (i 1))) :
    k6_pay1 (F := Ideal) x0 x1 y = Cert.Spec.mm h w i := by
  obtain ⟨p, q, rfl⟩ : ∃ (p : Fin 5000) (q : Fin 128), y = ix2 p q := ⟨y 0, y 1, eq_ix2 y⟩
  rw [payload_apply]
  show _ = ∑ k : Fin 128, h (ix2 (i 0) k) * w (ix2 k (i 1))
  exact Finset.sum_congr rfl fun k _ => by rw [hrow k, hcol k]

/-- What point `t` writes back is block `t` of the product of the feature array with the weight. -/
theorem flushed_eq (c : Dev nD) (t : Fin cfg6.N) :
    (dat6 (F := Ideal) V c).flushed 2 t
      = ((cfg6.win 2).blk t).view.read (Elt Ideal) (Cert.Spec.mm (V c main_v27) (V c main_v29)) := by
  show (cfg6.win 2).cut (grid6.coords t) ((dat6 (F := Ideal) V c).after 2 t) = _
  rw [after6_2]
  unfold out6_2
  rw [View.canon_unit_zero zero_offsets]
  simp only [View.ld_unit_zero (S := S5000x128) zero_offsets, View.ld_unit_zero (S := S128x128) zero_offsets]
  funext y
  obtain ⟨r0, r1⟩ := product_block_emb t y
  refine block_value _ _ _ _ y _ (fun k => ?_) (fun k => ?_)
  · exact features_block_apply V c t _ _ (by show _ = 5000 * t.val + (y 0).val; exact r0) rfl
  · exact weight_block_apply V c t _ _ rfl (by show _ = (y 1).val; exact r1)

/-- An index of the product array is in point `t`'s block iff each coordinate is in the block's range on its axis. -/
theorem mem_block (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v30).slice (win6_2.rect t)).set ↔ _
  rw [View.set_slice_whole, Rect.mem_set_unit]
  exact Iff.rfl

/-- Every row of the product array is in the block of the point numbered by the row divided by the rows per block. -/
theorem covered (i : S50000x128.Idx) :
    ∃ t : Fin cfg6.N, (cfg6.win 2).flush t = true ∧ i ∈ ((cfg6.win 2).blk t).view.set := by
  have hN : cfg6.N = 10 := N_6
  have hi0 : (i 0).val < 50000 := (i 0).isLt
  have hi1 : (i 1).val < 128 := (i 1).isLt
  let t : Fin cfg6.N := ⟨(i 0).val / 5000, by omega⟩
  have ht : t.val = (i 0).val / 5000 := rfl
  obtain ⟨-, -, -, -, e0, e1⟩ := index_facts t
  refine ⟨t, flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The product array after the region: the feature array times the weight, index by index. -/
theorem final (c : Dev nD) :
    (dat6 (F := Ideal) V c).arrAt 2 cfg6.N = Cert.Spec.mm (V c main_v27) (V c main_v29) :=
  (dat6 (F := Ideal) V c).arrAt_eq_of_cover 2 (Cert.Spec.mm (V c main_v27) (V c main_v29))
    (fun t _ => flushed_eq V c t) covered

end Cert.KernelIdeal.Product6

end
-- ==== Proof.Region7.lean ====
/-
  The message of every edge, read off the edge arrays row block by row block.

  The two edge arrays (the gathered rows and the edges' own features) and the result have 600000 rows of 128. The
  grid has 100 points; point t stages rows 6000 t … 6000 t + 5999 of each input, adds the two blocks entry by entry,
  clips the sum at zero, and writes the block back to the same rows of the result. The 100 row blocks tile the
  result, so after the last point the result holds, at every index, the clipped sum of the two inputs at that index.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem
open Cert.KernelIdeal Cert.KernelIdeal.Gen
open Idealize.ShloMosaic.Pipeline (Dat)
variable (V : (c : Dev nD) → (b : Ref sig .tc) → Buf (Elt Ideal) ((c : Thread nD τ).loc b))

namespace Cert.KernelIdeal.Message7

open Idealize.ShloMosaic.ValueIdx

/-- The body's one store starts at row 0, column 0 of the staged block. -/
theorem origin : (![0, 0] : Fin 2 → Nat) = fun _ => 0 := funext fun a => by fin_cases a <;> rfl

/-- The stored block at an entry: the two staged blocks added there, clipped at zero. -/
theorem payload_apply (x0 x1 : Vec Ideal S6000x128 .f32) (j : S6000x128.Idx) :
    k7_pay1 (F := Ideal) x0 x1 j = max (x0 j + x1 j) 0 := by
  unfold k7_pay1
  simp only [shapeCast_self]
  show max (x0 j + x1 j) (Ideal.ofBits .f32 0x00000000#32) = _
  rw [Ideal.ofBits_zero_f32]

/-- The message at an index from the two arrays read at indices that are both that index. -/
theorem msg_of_reads (xs ea : S600000x128.Idx → EReal) (k0 k1 k : S600000x128.Idx) (h0 : k0 = k) (h1 : k1 = k) :
    max (xs k0 + ea k1) 0 = Cert.Spec.msg xs ea k := by
  subst h0 h1; rfl

/-- Where each window's block sits at grid point t: row block t, the one column block (decided over the grid). -/
theorem block_index : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is row block t of the clipped sum of the two edge arrays. -/
theorem flushed_eq (c : Dev nD) (t : Fin cfg7.N) :
    (dat7 (F := Ideal) V c).flushed 2 t
      = ((cfg7.win 2).blk t).view.read (Elt Ideal) (Cert.Spec.msg (V c main_v31) (V c main_arg2)) := by
  show (cfg7.win 2).cut (grid7.coords t) ((dat7 (F := Ideal) V c).after 2 t) = _
  rw [after7_2]
  unfold out7_2
  rw [View.canon_unit_zero origin]
  simp only [View.ld_unit_zero (S := S6000x128) origin]
  obtain ⟨e0, e1, e2, e3, e4, e5⟩ := block_index t
  funext j
  show k7_pay1 (F := Ideal) (iblk7 V c 0 t) (iblk7 V c 1 t) j
    = Cert.Spec.msg (V c main_v31) (V c main_arg2) (((cfg7.win 2).blk t).view.emb j)
  refine (payload_apply _ _ _).trans ?_
  have h0 : ((cfg7.win 0).blk t).view.emb j = ((cfg7.win 2).blk t).view.emb j := by
    funext a; apply Fin.ext
    match a with
    | ⟨0, _⟩ => show win7_0.index t (0 : Fin 2) * 6000 + 1 * (j 0).val = win7_2.index t (0 : Fin 2) * 6000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 6000 + 1 * (j 0).val = win7_2.index t (0 : Fin 2) * 6000 + 1 * (j 0).val; omega
    | ⟨1, _⟩ => show win7_1.index t (1 : Fin 2) * 128 + 1 * (j 1).val = win7_2.index t (1 : Fin 2) * 128 + 1 * (j 1).val; omega
  exact msg_of_reads (V c main_v31) (V c main_arg2) _ _ _ h0 h1

/-- An index of the result lies in point t's block iff each coordinate lies in the block's range on its axis. -/
theorem mem_block (t : Fin cfg7.N) (i : S600000x128.Idx) :
    i ∈ ((cfg7.win 2).blk t).view.set ↔ ∀ a : Fin 2, win7_2.index t a * S6000x128.size a ≤ (i a).val
      ∧ (i a).val < win7_2.index t a * S6000x128.size a + S6000x128.size a := by
  show i ∈ ((View.whole main_v32).slice (win7_2.rect t)).set ↔ _
  rw [View.set_slice_whole, Rect.mem_set_unit]
  exact Iff.rfl

/-- Every index of the result is written back by some point: row r by point r / 6000. -/
theorem covered (i : S600000x128.Idx) :
    ∃ t : Fin cfg7.N, (cfg7.win 2).flush t = true ∧ i ∈ ((cfg7.win 2).blk t).view.set := by
  have hN : cfg7.N = 100 := N_7
  have hi0 : (i 0).val < 600000 := (i 0).isLt
  have hi1 : (i 1).val < 128 := (i 1).isLt
  obtain ⟨t, ht⟩ : ∃ t : Fin cfg7.N, t.val = (i 0).val / 6000 := ⟨⟨(i 0).val / 6000, by omega⟩, rfl⟩
  obtain ⟨-, -, -, -, e4, e5⟩ := block_index t
  refine ⟨t, flush7_2 t, ?_⟩
  rw [mem_block]
  intro a
  match a with
  | ⟨0, _⟩ => show win7_2.index t (0 : Fin 2) * 6000 ≤ (i 0).val ∧ (i 0).val < win7_2.index t (0 : Fin 2) * 6000 + 6000; omega
  | ⟨1, _⟩ => show win7_2.index t (1 : Fin 2) * 128 ≤ (i 1).val ∧ (i 1).val < win7_2.index t (1 : Fin 2) * 128 + 128; omega

/-- After the region the result array holds the message of every edge. -/
theorem final (c : Dev nD) :
    (dat7 (F := Ideal) V c).arrAt 2 cfg7.N = Cert.Spec.msg (V c main_v31) (V c main_arg2) :=
  (dat7 (F := Ideal) V c).arrAt_eq_of_cover 2 (Cert.Spec.msg (V c main_v31) (V c main_arg2))
    (fun t _ => flushed_eq V c t) covered

end Cert.KernelIdeal.Message7

end
-- ==== Proof.Region8.lean ====
/-
  Region 8 (the last layer's update), from blocks to the array: the output array after the region is the last layer's
  update of the three arrays the region reads — the summed messages plus the bias row plus the layer's input, with no
  clip — index by index. The body's value at an index of a block, the rows of each array a block holds, what a point
  writes back, and the blocks' tiling of the 50000 rows by 5000.
-/
import proofs.«424701_j75024488726867_1_alg».proof.Proof.Gen.KernelIdeal.Frame
import proofs.«424701_j75024488726867_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

namespace Cert.KernelIdeal.Update8

open Idealize.ShloMosaic.ValueIdx

/-- The body reads and writes whole staging blocks: every access starts at offset (0, 0). -/
theorem off_zero : (![0, 0] : Fin 2 → Nat) = fun _ => 0 := funext fun a => by fin_cases a <;> rfl

/-! ## The body's value at an index of a block -/

/-- The bias row, stretched over the rows of a block, read at (p, q) is the row's entry q. -/
theorem row_apply (x1 : Vec Ideal S1x128 .f32) (h : S1x128.Broadcasts S5000x128) (p : Fin 5000) (q : Fin 128) :
    broadcastTo S5000x128 x1 h (ix2 p q) = x1 (ix2 0 q) := by
  refine broadcastTo_apply x1 h (ix2 p q) (ix2 0 q) fun a => ?_
  match a with
  | ⟨0, _⟩ => rfl
  | ⟨1, _⟩ => rfl

/-- What the body stores at (p, q) of the output block: the summed messages there plus the bias at column q, plus the
    residual there; the last layer does not clip. -/
theorem pay_apply (x0 : Vec Ideal S5000x128 .f32) (x1 : Vec Ideal S1x128 .f32) (x2 : Vec Ideal S5000x128 .f32)
    (p : Fin 5000) (q : Fin 128) :
    k8_pay1 x0 x1 x2 (ix2 p q) = x0 (ix2 p q) + x1 (ix2 0 q) + x2 (ix2 p q) := by
  unfold k8_pay1
  simp only [shapeCast_self]
  rw [addf_apply, addf_apply, row_apply]

/-! ## Where each window's block sits -/

/-- The block indices over the grid: at point t the three row-blocked windows are at block (t, 0), the bias window at
    block (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- The summed messages' block at point t is rows 5000 t … 5000 t + 4999 of their array. -/
theorem sums_blk (c : Dev nD) (t : Fin cfg8.N) (y : S5000x128.Idx) (i : S50000x128.Idx)
    (h0 : (i 0).val = 5000 * t.val + (y 0).val) (h1 : (i 1).val = (y 1).val) :
    (iblk8 V c 0 t : Vec Ideal S5000x128 .f32) y = (V c main_v35 : S50000x128.Idx → Elt Ideal .f32) i := by
  obtain ⟨e0, e1, -⟩ := idx_facts t
  unfold iblk8
  rw [View.read_apply]
  show V c main_v35 _ = V c main_v35 _
  congr 1
  funext a
  apply Fin.ext
  match a with
  | ⟨0, _⟩ => show win8_0.index t 0 * 5000 + 1 * (y 0).val = (i 0).val; omega
  | ⟨1, _⟩ => show win8_0.index t 1 * 128 + 1 * (y 1).val = (i 1).val; omega

/-- The bias window's block is the whole row at every point. -/
theorem bias_blk (c : Dev nD) (t : Fin cfg8.N) (y : S1x128.Idx) (k : S1x128.Idx)
    (h0 : (k 0).val = (y 0).val) (h1 : (k 1).val = (y 1).val) :
    (iblk8 V c 1 t : Vec Ideal S1x128 .f32) y = (V c main_v38 : S1x128.Idx → Elt Ideal .f32) k := by
  obtain ⟨-, -, e0, e1, -⟩ := idx_facts t
  unfold iblk8
  rw [View.read_apply]
  show V c main_v38 _ = V c main_v38 _
  congr 1
  funext a
  apply Fin.ext
  match a with
  | ⟨0, _⟩ => show win8_1.index t 0 * 1 + 1 * (y 0).val = (k 0).val; omega
  | ⟨1, _⟩ => show win8_1.index t 1 * 128 + 1 * (y 1).val = (k 1).val; omega

/-- The residual's block at point t is rows 5000 t … 5000 t + 4999 of its array. -/
theorem resid_blk (c : Dev nD) (t : Fin cfg8.N) (y : S5000x128.Idx) (i : S50000x128.Idx)
    (h0 : (i 0).val = 5000 * t.val + (y 0).val) (h1 : (i 1).val = (y 1).val) :
    (iblk8 V c 2 t : Vec Ideal S5000x128 .f32) y = (V c main_v27 : S50000x128.Idx → Elt Ideal .f32) i := by
  obtain ⟨-, -, -, -, e0, e1, -⟩ := idx_facts t
  unfold iblk8
  rw [View.read_apply]
  show V c main_v27 _ = V c main_v27 _
  congr 1
  funext a
  apply Fin.ext
  match a with
  | ⟨0, _⟩ => show win8_2.index t 0 * 5000 + 1 * (y 0).val = (i 0).val; omega
  | ⟨1, _⟩ => show win8_2.index t 1 * 128 + 1 * (y 1).val = (i 1).val; omega

/-! ## What a point writes back -/

/-- Point t writes back block t of the last layer's update of the three arrays as the region finds them. -/
theorem flushed_eq (c : Dev nD) (t : Fin cfg8.N) :
    (dat8 (F := Ideal) V c).flushed 3 t = ((cfg8.win 3).blk t).view.read (Elt Ideal)
      (Cert.Spec.updLin (V c main_v35) (V c main_v38) (V c main_v27)) := by
  show (cfg8.win 3).cut (grid8.coords t) ((dat8 V c).after 3 t) = _
  rw [after8_3]
  unfold out8_3
  rw [View.canon_unit_zero off_zero]
  simp only [View.ld_unit_zero (S := S5000x128) off_zero, View.ld_unit_zero (S := S1x128) off_zero]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show k8_pay1 (iblk8 V c 0 t) (iblk8 V c 1 t) (iblk8 V c 2 t) (ix2 p q)
    = Cert.Spec.updLin (V c main_v35) (V c main_v38) (V c main_v27) (((cfg8.win 3).blk t).view.emb (ix2 p q))
  refine (pay_apply _ _ _ p q).trans ?_
  have hi0 : ((((cfg8.win 3).blk t).view.emb (ix2 p q) : S50000x128.Idx) 0).val = 5000 * t.val + p.val := by
    show win8_3.index t 0 * 5000 + 1 * p.val = _; omega
  have hi1 : ((((cfg8.win 3).blk t).view.emb (ix2 p q) : S50000x128.Idx) 1).val = q.val := by
    show win8_3.index t 1 * 128 + 1 * q.val = _; omega
  rw [sums_blk V c t (ix2 p q) _ hi0 hi1, resid_blk V c t (ix2 p q) _ hi0 hi1,
    bias_blk V c t (ix2 0 q) (ix2 0 ((((cfg8.win 3).blk t).view.emb (ix2 p q) : S50000x128.Idx) 1)) rfl hi1]
  rfl

/-! ## The blocks tile the array -/

/-- An index of the array is in point t's block iff each coordinate is in the block's range on its axis. -/
theorem mem_blk (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v39).slice (win8_3.rect t)).set ↔ _
  rw [View.set_slice_whole, Rect.mem_set_unit]
  exact Iff.rfl

/-- Row r lies in the block of point r / 5000, and every point writes its block back. -/
theorem cover (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 10 := N_8
  refine ⟨⟨(i 0).val / 5000, by rw [hN]; omega⟩, flush8_3 _, ?_⟩
  rw [mem_blk]
  obtain ⟨-, -, -, -, -, -, e0, e1⟩ := idx_facts ⟨(i 0).val / 5000, by rw [hN]; omega⟩
  intro a
  match a with
  | ⟨0, _⟩ => show win8_3.index _ (0 : Fin 2) * 5000 ≤ (i 0).val ∧ (i 0).val < win8_3.index _ (0 : Fin 2) * 5000 + 5000; rw [e0]; show (i 0).val / 5000 * 5000 ≤ (i 0).val ∧ (i 0).val < (i 0).val / 5000 * 5000 + 5000; omega
  | ⟨1, _⟩ => show win8_3.index _ (1 : Fin 2) * 128 ≤ (i 1).val ∧ (i 1).val < win8_3.index _ (1 : Fin 2) * 128 + 128; rw [e1]; omega

/-! ## The array after the region -/

/-- The output array after the region is the last layer's update of the three arrays as the region finds them. -/
theorem final (c : Dev nD) :
    (dat8 (F := Ideal) V c).arrAt 3 cfg8.N = Cert.Spec.updLin (V c main_v35) (V c main_v38) (V c main_v27) :=
  (dat8 (F := Ideal) V c).arrAt_eq_of_cover 3 _ (fun t _ => flushed_eq V c t) cover

end Cert.KernelIdeal.Update8

end
-- ==== Proof.Walk2.lean ====
/-
  One layer, walked through the program: from the layer's input array to its output array.

  The layer's stretch of the program is six steps. A host stretch cuts the layer's weight out of the weight stack. A
  kernel region multiplies the input by it. A host stretch gathers the product's rows at the edges' source nodes, with
  a guard that does nothing when the source nodes are in range. A kernel region forms the messages. A host stretch
  sums the messages into their destination nodes and cuts the layer's bias row out of the bias table. A kernel region
  updates. Each step's result buffer is read off the fold of buffer contents at the step's exit boundary: a region's
  output array is the whole-array function its blocks tile, a host operation's result is its function of its operands'
  contents at the stretch's entry, and every operand is either the previous step's result or a buffer nothing has
  written since it was made.
-/
import proofs.«424701_j75024488726867_1_alg».proof.Proof.Gen.KernelIdeal.Frame
import proofs.«424701_j75024488726867_1_alg».proof.Proof.Layer
import proofs.«424701_j75024488726867_1_alg».proof.Proof.WalkBase
import proofs.«424701_j75024488726867_1_alg».proof.Proof.Region6
import proofs.«424701_j75024488726867_1_alg».proof.Proof.Region7
import proofs.«424701_j75024488726867_1_alg».proof.Proof.Region8
import proofs.«424701_j75024488726867_1_alg».proof.Proof.Keep_v1
import proofs.«424701_j75024488726867_1_alg».proof.Proof.Keep_v3
import proofs.«424701_j75024488726867_1_alg».proof.Proof.Keep_arg0
import proofs.«424701_j75024488726867_1_alg».proof.Proof.Keep_arg2
import proofs.«424701_j75024488726867_1_alg».proof.Proof.Keep_arg3
import proofs.«424701_j75024488726867_1_alg».proof.Proof.Keep_arg4
import proofs.«424701_j75024488726867_1_alg».proof.Proof.Keep_v15
import proofs.«424701_j75024488726867_1_alg».proof.Proof.Keep_v27
import proofs.«424701_j75024488726867_1_alg».proof.Proof.LibTypedRef
import Idealize.ShloMosaic.Lib.StableHlo.Run

set_option maxRecDepth 16384

noncomputable section

namespace Cert.KernelIdeal.Walk2

open Idealize.ShloMosaic Idealize.ShloMosaic.TcCoe Idealize.SL.Sem Idealize.ShloMosaic.StableHlo
open Cert.KernelIdeal Cert.KernelIdeal.Gen Cert.KernelIdeal.Layer Cert.KernelIdeal.Take Cert.KernelIdeal.Keep
open Cert.KernelIdeal.WalkBase

variable (m : (ℓ : Loc nD τ sig) → Buf (Elt Ideal) ℓ) (ρ : Dev nD → PrngReg)

/-- The layer's weight, cut out of the weight stack as launched. -/
theorem weight_at (c : Dev nD) :
    W13 m ρ c (Proc.devRef .tc main_v29) = weight2 (m ((c : Thread nD τ).loc main_arg3)) := by
  have e : W13 m ρ c (Proc.devRef .tc main_v29) = weight2 (W12 m ρ c (Proc.devRef .tc main_arg3)) := by
    show StableHlo.after hostOps6 (W12 m ρ c) (Proc.devRef .tc main_v29) = _
    after_results
    rfl
  exact e.trans (congrArg weight2 (through_arg3_12 m ρ c))

/-- The product region leaves the input times the weight. -/
theorem product_at (c : Dev nD) (h : FVec Ideal S50000x128 .f32)
    (hin : W12 m ρ c (Proc.devRef .tc main_v27) = h) :
    W14 m ρ c (Proc.devRef .tc main_v30) = Cert.Spec.mm h (weight2 (m ((c : Thread nD τ).loc main_arg3))) :=
  (W14_arr m ρ c 2).trans ((Product6.final (V13 m ρ) c).trans (by
    show Cert.Spec.mm (W13 m ρ c (Proc.devRef .tc main_v27)) (W13 m ρ c (Proc.devRef .tc main_v29)) = _
    exact congrArg₂ Cert.Spec.mm ((through_v27_13 m ρ c).trans hin) (weight_at m ρ c)))

/-- The gather stretch read from any contents at its entry: the choice, by the range mask of the source row found there,
    between the gathered rows of the product found there and the fill. -/
theorem gathered_read (V : Valuation τ sig (Elt Ideal)) :
    StableHlo.after hostOps7 V (Proc.devRef .tc main_v31)
      = select (inRange (V (Proc.devRef .tc main_v1)))
          (Host.gather gather_S50000x128_S600000x1_S600000x128_1_0_n_n_0_1_1128 (V (Proc.devRef .tc main_v30))
            (idxCol (V (Proc.devRef .tc main_v1))))
          (broadcastInDim S600000x128 ![] bcast_S_S600000x128 (constant (F := Ideal) S_ .f32 0x7FC00000#32)) := by
  after_results_simp
  simp only [TRef.ofBuf_toBuf]
  simp only [TRef.toBuf, TRef.ofBuf, cast_eq]
  rfl

/-- The guarded gather leaves the product's rows at the edges' source nodes: with the source nodes in range the guard
    chooses the gathered row everywhere. -/
theorem rows_at (c : Dev nD) (h : FVec Ideal S50000x128 .f32)
    (hin : W12 m ρ c (Proc.devRef .tc main_v27) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W15 m ρ c (Proc.devRef .tc main_v31)
      = rows (m ((c : Thread nD τ).loc main_arg1)) (Cert.Spec.mm h (weight2 (m ((c : Thread nD τ).loc main_arg3)))) := by
  have e : W15 m ρ c (Proc.devRef .tc main_v31)
      = select (inRange (W14 m ρ c (Proc.devRef .tc main_v1)))
          (Host.gather gather_S50000x128_S600000x1_S600000x128_1_0_n_n_0_1_1128 (W14 m ρ c (Proc.devRef .tc main_v30))
            (idxCol (W14 m ρ c (Proc.devRef .tc main_v1))))
          (broadcastInDim S600000x128 ![] bcast_S_S600000x128 (constant (F := Ideal) S_ .f32 0x7FC00000#32)) :=
    gathered_read (W14 m ρ c)
  have es : W14 m ρ c (Proc.devRef .tc main_v1) = src (m ((c : Thread nD τ).loc main_arg1)) :=
    (through_v1_14 m ρ c).trans (src_at1 m ρ c)
  rw [e, es, product_at m ρ c h hin, select_gather _ hlo hhi]
  rfl

/-- The message region leaves the messages of the gathered rows and the edge features as launched. -/
theorem messages_at (c : Dev nD) (h : FVec Ideal S50000x128 .f32)
    (hin : W12 m ρ c (Proc.devRef .tc main_v27) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W16 m ρ c (Proc.devRef .tc main_v32)
      = Cert.Spec.msg (rows (m ((c : Thread nD τ).loc main_arg1)) (Cert.Spec.mm h (weight2 (m ((c : Thread nD τ).loc main_arg3)))))
          (m ((c : Thread nD τ).loc main_arg2)) :=
  (W16_arr m ρ c 2).trans ((Message7.final (V15 m ρ) c).trans (by
    show Cert.Spec.msg (W15 m ρ c (Proc.devRef .tc main_v31)) (W15 m ρ c (Proc.devRef .tc main_arg2)) = _
    exact congrArg₂ Cert.Spec.msg (rows_at m ρ c h hin hlo hhi) (through_arg2_15 m ρ c)))

/-- The per-node sum of the messages, from zero, at the edges' destination nodes. -/
theorem summed_at (c : Dev nD) (h : FVec Ideal S50000x128 .f32)
    (hin : W12 m ρ c (Proc.devRef .tc main_v27) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W17 m ρ c (Proc.devRef .tc main_v35)
      = agg (m ((c : Thread nD τ).loc main_arg1))
          (Cert.Spec.msg (rows (m ((c : Thread nD τ).loc main_arg1)) (Cert.Spec.mm h (weight2 (m ((c : Thread nD τ).loc main_arg3)))))
            (m ((c : Thread nD τ).loc main_arg2))) := by
  have e : W17 m ρ c (Proc.devRef .tc main_v35)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (W16 m ρ c (Proc.devRef .tc main_v3)))
          (W16 m ρ c (Proc.devRef .tc main_v32)) := by
    show StableHlo.after hostOps8 (W16 m ρ c) (Proc.devRef .tc main_v35) = _
    after_results
  have ed : W16 m ρ c (Proc.devRef .tc main_v3) = dst (m ((c : Thread nD τ).loc main_arg1)) :=
    (through_v3_16 m ρ c).trans (dst_at1 m ρ c)
  rw [e, ed, messages_at m ρ c h hin hlo hhi]
  rfl

/-- The layer's bias row, cut out of the bias table as launched. -/
theorem bias_at (c : Dev nD) :
    W17 m ρ c (Proc.devRef .tc main_v38) = bias2 (m ((c : Thread nD τ).loc main_arg4)) := by
  have e : W17 m ρ c (Proc.devRef .tc main_v38) = bias2 (W16 m ρ c (Proc.devRef .tc main_arg4)) := by
    show StableHlo.after hostOps8 (W16 m ρ c) (Proc.devRef .tc main_v38) = _
    after_results
    rfl
  exact e.trans (congrArg bias2 (through_arg4_16 m ρ c))

/-- THE LAYER: the update region leaves the layer's function of its input and of the edge list, the edge features, the
    weight stack and the bias table as launched. -/
theorem out (c : Dev nD) (h : FVec Ideal S50000x128 .f32)
    (hin : W12 m ρ c (Proc.devRef .tc main_v27) = h)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W18 m ρ c (Proc.devRef .tc main_v39)
      = layerLin h (m ((c : Thread nD τ).loc main_arg1)) (m ((c : Thread nD τ).loc main_arg2))
          (weight2 (m ((c : Thread nD τ).loc main_arg3))) (bias2 (m ((c : Thread nD τ).loc main_arg4))) :=
  (W18_arr m ρ c 3).trans ((Update8.final (V17 m ρ) c).trans (by
    show Cert.Spec.updLin (W17 m ρ c (Proc.devRef .tc main_v35)) (W17 m ρ c (Proc.devRef .tc main_v38))
      (W17 m ρ c (Proc.devRef .tc main_v27)) = _
    rw [summed_at m ρ c h hin hlo hhi, bias_at m ρ c, (through_v27_17 m ρ c).trans hin]
    rfl))

end Cert.KernelIdeal.Walk2

end
-- ==== Proof.Chain.lean ====
/-
  The three layers chained: the program's result buffer at the last boundary is the network function of the inputs.

  The first layer's input is the feature array as launched; each later layer's input is the previous layer's output
  array, which nothing writes before the layer has read it twice (for the product and for the residual).
-/
import proofs.«424701_j75024488726867_1_alg».proof.Proof.Walk0
import proofs.«424701_j75024488726867_1_alg».proof.Proof.Walk1
import proofs.«424701_j75024488726867_1_alg».proof.Proof.Walk2

set_option maxRecDepth 16384

noncomputable section

namespace Cert.KernelIdeal.Chain

open Idealize.ShloMosaic Idealize.ShloMosaic.TcCoe Idealize.SL.Sem
open Cert.KernelIdeal Cert.KernelIdeal.Gen Cert.KernelIdeal.Layer Cert.KernelIdeal.Take

variable (m : (ℓ : Loc nD τ sig) → Buf (Elt Ideal) ℓ) (ρ : Dev nD → PrngReg)

/-- With every source node in range, the result buffer after the last region holds the three layers applied to the
    feature array, with the edge list, the edge features, the weight stack and the bias table as launched. -/
theorem result (c : Dev nD)
    (hlo : ∀ e, IntOp.cmpi .sge (src (m ((c : Thread nD τ).loc main_arg1)) e) 0#32 = 1#1)
    (hhi : ∀ e, IntOp.cmpi .slt (src (m ((c : Thread nD τ).loc main_arg1)) e) 50000#32 = 1#1) :
    W18 m ρ c (Proc.devRef .tc main_v39)
      = Layer.out (m ((c : Thread nD τ).loc main_arg0)) (m ((c : Thread nD τ).loc main_arg1))
          (m ((c : Thread nD τ).loc main_arg2)) (m ((c : Thread nD τ).loc main_arg3)) (m ((c : Thread nD τ).loc main_arg4)) :=
  Walk2.out m ρ c _ (Walk1.out m ρ c _ (Walk0.out m ρ c _ rfl hlo hhi) hlo hhi) hlo hhi

end Cert.KernelIdeal.Chain

end
-- ==== Proof.RefLayer.lean ====
/-
  The reference's result as the same three layers.

  The reference computes each layer with whole-array host operations: a matrix product, the same row gather at the same
  index column (without a guard), an add and a maximum against a splat of zero for the message, the same per-node sum
  from a splat of zero, and for the update an add of the bias row spread over all rows, a maximum against zero (not in
  the last layer) and an add of the layer's input. Read at an index over the extended reals, the product is the sum
  over the contraction's one coordinate of left (row, k) times right (k, column), the zero word is 0, and the spread
  bias row at (r, j) is the row's entry j. So each pointwise step is the specification's function of the same arrays, and
  the reference's result, a composed term of the five inputs, is the network function of those inputs.
-/
import proofs.«424701_j75024488726867_1_alg».proof.Proof.Gen.ReferenceIdeal.Run
import proofs.«424701_j75024488726867_1_alg».proof.Proof.Gen.ReferenceIdeal.Read
import proofs.«424701_j75024488726867_1_alg».proof.Proof.Layer
import Idealize.ShloMosaic.Lib.ValueIdx
import Idealize.ShloMosaic.Lib.StableHlo.Predicate
import Idealize.ShloMosaic.PureOps.Ideal.Laws

set_option maxRecDepth 16384

noncomputable section

namespace Cert.ReferenceIdeal.Layers

open Idealize.ShloMosaic Idealize.ShloMosaic.TcCoe Idealize.SL.Sem
open Cert.ReferenceIdeal Cert.ReferenceIdeal.Gen Cert.ReferenceIdeal.Read

/-- The host's matrix product, index by index: the sum over k of left (r, k) times right (k, j). -/
theorem product_eq (h : FVec Ideal S50000x128 .f32) (w : FVec Ideal S128x128 .f32) :
    Host.dotGeneral dot_S50000x128_S128x128_S50000x128_1_0_0_1_n_n none h w = Cert.Spec.mm h w := by
  funext i
  simp only [Host.dotGeneral]
  rw [Ideal.dotGeneral_apply, ← Equiv.sum_comp (ValueIdx.contrEquiv1 dot_S50000x128_S128x128_S50000x128_1_0_0_1_n_n 128 rfl rfl).symm]
  show _ = ∑ k : Fin 128, h (ValueIdx.ix2 (i 0) k) * w (ValueIdx.ix2 k (i 1))
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ValueIdx.ix2 (i 0) k := funext fun a => Fin.ext (by
    match a with
    | ⟨0, _⟩ => exact lhs_main_v6_0 _ _
    | ⟨1, _⟩ => exact (lhs_main_v6_1 _ _).trans hk)
  have er : dot_S50000x128_S128x128_S50000x128_1_0_0_1_n_n.rhsIdx i ((ValueIdx.contrEquiv1 dot_S50000x128_S128x128_S50000x128_1_0_0_1_n_n 128 rfl rfl).symm k) = ValueIdx.ix2 k (i 1) := funext fun a => Fin.ext (by
    match a with
    | ⟨0, _⟩ => exact (rhs_main_v6_0 _ _).trans hk
    | ⟨1, _⟩ => exact rhs_main_v6_1 _ _)
  rw [el, er]
  rfl

/-- The message: an add, then a maximum against the splat of the zero word. -/
theorem message_eq (xs ea : FVec Ideal S600000x128 .f32) :
    maximumf (addf xs ea) (broadcastInDim S600000x128 ![] bcast_S_S600000x128 (constant (F := Ideal) S_ .f32 0x00000000#32))
      = Cert.Spec.msg xs ea := by
  funext i
  show max (xs i + ea i) (Ideal.ofBits .f32 0x00000000#32) = max (xs i + ea i) 0
  rw [Ideal.ofBits_zero_f32]

/-- The bias row spread over all rows reads, at (r, j), the row's entry j. -/
theorem bias_row_apply (bl : FVec Ideal S1x128 .f32) (i : S50000x128.Idx) :
    broadcastInDim S50000x128 ![0, 1] bcast_S1x128_S50000x128_0_1 bl i = bl (ValueIdx.ix2 0 (i 1)) := by
  have e := StableHlo.Predicate.bcast_of_row (n := 50000) (m := 128) bcast_S1x128_S50000x128_0_1 bl (i 0) (i 1)
  have e1 : broadcastInDim S50000x128 ![0, 1] bcast_S1x128_S50000x128_0_1 bl i
      = broadcastInDim S50000x128 ![0, 1] bcast_S1x128_S50000x128_0_1 bl (StableHlo.Predicate.ij (i 0) (i 1)) :=
    congrArg _ (StableHlo.Predicate.ij_eta i).symm
  refine (e1.trans e).trans (congrArg bl ?_)
  funext a
  match a with
  | ⟨0, _⟩ => rfl
  | ⟨1, _⟩ => rfl

/-- A middle layer's update. -/
theorem update_eq (hs : FVec Ideal S50000x128 .f32) (bl : FVec Ideal S1x128 .f32) (h : FVec Ideal S50000x128 .f32) :
    addf (maximumf (addf hs (broadcastInDim S50000x128 ![0, 1] bcast_S1x128_S50000x128_0_1 bl))
        (broadcastInDim S50000x128 ![] bcast_S_S50000x128 (constant (F := Ideal) S_ .f32 0x00000000#32))) h
      = Cert.Spec.updRelu hs bl h := by
  funext i
  show max (hs i + broadcastInDim S50000x128 ![0, 1] bcast_S1x128_S50000x128_0_1 bl i) (Ideal.ofBits .f32 0x00000000#32) + h i
    = max (hs i + bl (ValueIdx.ix2 0 (i 1))) 0 + h i
  rw [Ideal.ofBits_zero_f32, bias_row_apply]

/-- The last layer's update. -/
theorem update_last_eq (hs : FVec Ideal S50000x128 .f32) (bl : FVec Ideal S1x128 .f32) (h : FVec Ideal S50000x128 .f32) :
    addf (addf hs (broadcastInDim S50000x128 ![0, 1] bcast_S1x128_S50000x128_0_1 bl)) h = Cert.Spec.updLin hs bl h := by
  funext i
  show hs i + broadcastInDim S50000x128 ![0, 1] bcast_S1x128_S50000x128_0_1 bl i + h i = hs i + bl (ValueIdx.ix2 0 (i 1)) + h i
  rw [bias_row_apply]

/-- A middle layer as the reference spells it: whole-array host operations of the layer's input, the edge list, the
    edge features, the layer's weight and its bias row. -/
def layer (h : FVec Ideal S50000x128 .f32) (ei : IVec S2x600000 32) (ea : FVec Ideal S600000x128 .f32)
    (w : FVec Ideal S128x128 .f32) (bl : FVec Ideal S1x128 .f32) : FVec Ideal S50000x128 .f32 :=
  addf (maximumf (addf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast S600000 (extractStridedSlice S1x600000 ![1, 0] ei slices_S2x600000_S1x600000_1_0) shapeCasts_S1x600000_S600000)) (maximumf (addf (Host.gather gather_S50000x128_S600000x1_S600000x128_1_0_n_n_0_1_1128 (Host.dotGeneral dot_S50000x128_S128x128_S50000x128_1_0_0_1_n_n none h w) (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32))) (addi (shapeCast S600000 (extractStridedSlice S1x600000 ![0, 0] ei slices_S2x600000_S1x600000_0_0) shapeCasts_S1x600000_S600000) (broadcastInDim S600000 ![] bcast_S_S600000 (constantI S_ 32 50000#32))) (shapeCast S600000 (extractStridedSlice S1x600000 ![0, 0] ei slices_S2x600000_S1x600000_0_0) shapeCasts_S1x600000_S600000)))) ea) (broadcastInDim S600000x128 ![] bcast_S_S600000x128 (constant (F := Ideal) S_ .f32 0x00000000#32)))) (broadcastInDim S50000x128 ![0, 1] bcast_S1x128_S50000x128_0_1 bl)) (broadcastInDim S50000x128 ![] bcast_S_S50000x128 (constant (F := Ideal) S_ .f32 0x00000000#32))) h

/-- The last layer as the reference spells it: no maximum. -/
def layerLast (h : FVec Ideal S50000x128 .f32) (ei : IVec S2x600000 32) (ea : FVec Ideal S600000x128 .f32)
    (w : FVec Ideal S128x128 .f32) (bl : FVec Ideal S1x128 .f32) : FVec Ideal S50000x128 .f32 :=
  addf (addf (Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast S600000 (extractStridedSlice S1x600000 ![1, 0] ei slices_S2x600000_S1x600000_1_0) shapeCasts_S1x600000_S600000)) (maximumf (addf (Host.gather gather_S50000x128_S600000x1_S600000x128_1_0_n_n_0_1_1128 (Host.dotGeneral dot_S50000x128_S128x128_S50000x128_1_0_0_1_n_n none h w) (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32))) (addi (shapeCast S600000 (extractStridedSlice S1x600000 ![0, 0] ei slices_S2x600000_S1x600000_0_0) shapeCasts_S1x600000_S600000) (broadcastInDim S600000 ![] bcast_S_S600000 (constantI S_ 32 50000#32))) (shapeCast S600000 (extractStridedSlice S1x600000 ![0, 0] ei slices_S2x600000_S1x600000_0_0) shapeCasts_S1x600000_S600000)))) ea) (broadcastInDim S600000x128 ![] bcast_S_S600000x128 (constant (F := Ideal) S_ .f32 0x00000000#32)))) (broadcastInDim S50000x128 ![0, 1] bcast_S1x128_S50000x128_0_1 bl)) h

/-- The reference's middle layer is the network's: the product, the message and the update are the specification's
    functions, and the gather, the per-node sum and the index columns are the same operations of the same arrays. -/
theorem layer_eq (h : FVec Ideal S50000x128 .f32) (ei : IVec S2x600000 32) (ea : FVec Ideal S600000x128 .f32)
    (w : FVec Ideal S128x128 .f32) (bl : FVec Ideal S1x128 .f32) :
    layer h ei ea w bl = Cert.KernelIdeal.Layer.layerRelu h ei ea w bl := by
  unfold layer
  rw [product_eq, message_eq, update_eq]
  rfl

/-- Likewise the last layer. -/
theorem layerLast_eq (h : FVec Ideal S50000x128 .f32) (ei : IVec S2x600000 32) (ea : FVec Ideal S600000x128 .f32)
    (w : FVec Ideal S128x128 .f32) (bl : FVec Ideal S1x128 .f32) :
    layerLast h ei ea w bl = Cert.KernelIdeal.Layer.layerLin h ei ea w bl := by
  unfold layerLast
  rw [product_eq, message_eq, update_last_eq]
  rfl

/-- The reference's composed result term is its three layers, each with its slice of the weight stack and its row of
    the bias table. -/
theorem result_layers (m : (ℓ : Loc nD τ sig) → Buf (Elt Ideal) ℓ) (c : Dev nD) :
    Cert.ReferenceIdeal.Value.res_main_v68 (F := Ideal) m c
      = layerLast (layer (layer (m ((c.tc : Thread nD τ).loc main_arg0)) (m ((c.tc : Thread nD τ).loc main_arg1)) (m ((c.tc : Thread nD τ).loc main_arg2)) (shapeCast S128x128 (extractStridedSlice S1x128x128 ![0, 0, 0] (m ((c.tc : Thread nD τ).loc main_arg3)) slices_S3x128x128_S1x128x128_0_0_0) shapeCasts_S1x128x128_S128x128) (broadcastInDim S1x128 ![1] bcast_S128_S1x128_1 (shapeCast S128 (extractStridedSlice S1x128 ![0, 0] (m ((c.tc : Thread nD τ).loc main_arg4)) slices_S3x128_S1x128_0_0) shapeCasts_S1x128_S128))) (m ((c.tc : Thread nD τ).loc main_arg1)) (m ((c.tc : Thread nD τ).loc main_arg2)) (shapeCast S128x128 (extractStridedSlice S1x128x128 ![1, 0, 0] (m ((c.tc : Thread nD τ).loc main_arg3)) slices_S3x128x128_S1x128x128_1_0_0) shapeCasts_S1x128x128_S128x128) (broadcastInDim S1x128 ![1] bcast_S128_S1x128_1 (shapeCast S128 (extractStridedSlice S1x128 ![1, 0] (m ((c.tc : Thread nD τ).loc main_arg4)) slices_S3x128_S1x128_1_0) shapeCasts_S1x128_S128))) (m ((c.tc : Thread nD τ).loc main_arg1)) (m ((c.tc : Thread nD τ).loc main_arg2)) (shapeCast S128x128 (extractStridedSlice S1x128x128 ![2, 0, 0] (m ((c.tc : Thread nD τ).loc main_arg3)) slices_S3x128x128_S1x128x128_2_0_0) shapeCasts_S1x128x128_S128x128) (broadcastInDim S1x128 ![1] bcast_S128_S1x128_1 (shapeCast S128 (extractStridedSlice S1x128 ![2, 0] (m ((c.tc : Thread nD τ).loc main_arg4)) slices_S3x128_S1x128_2_0) shapeCasts_S1x128_S128)) := by
  unfold Cert.ReferenceIdeal.Value.res_main_v68 layerLast layer
  with_reducible rfl

/-- THE REFERENCE'S RESULT is the network function of its five inputs. -/
theorem result_eq (m : (ℓ : Loc nD τ sig) → Buf (Elt Ideal) ℓ) (c : Dev nD) :
    Cert.ReferenceIdeal.Value.res_main_v68 (F := Ideal) m c
      = Cert.KernelIdeal.Layer.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [result_layers, layerLast_eq, layer_eq, layer_eq]
  rfl

end Cert.ReferenceIdeal.Layers

end
-- ==== Proof.lean ====
/-
  A three-layer graph convolution on 50000 nodes and 600000 edges, in nine kernel regions against the plain
  reference. Each layer multiplies the node features by a 128 × 128 weight, gathers the product's rows at the edges'
  source nodes, adds the edge features and clips at zero, sums the messages into their destination nodes, adds a bias
  row, clips at zero (the last layer does not) and adds the layer's input back.

  Over the extended reals the two programs compute the same function when every source node is a node: the kernel's
  gather replaces a row whose index is out of range by a fill value where the reference's gather reads the nearest row,
  so the precondition asks that the source row of the edge list lie in `0 … 49999`; the destination row is free, because
  both programs hand it to the same per-node sum. Under that precondition the guard never acts. The kernel's three
  products run block by block over 5000 rows with a change of float format that is the identity here, and equal the
  reference's whole products as sums over the contraction index; the message and update regions are pointwise and run
  block by block over rows; the gather and the per-node sum are the same host operations in both programs.

  The kernel's frames are the generated ones; its run with the result buffer named is the same launch with the result
  kept in the post; the reference's frame and run are its generated run.
-/
import proofs.«424701_j75024488726867_1_alg».proof.Defs
import proofs.«424701_j75024488726867_1_alg».proof.Proof.Gen.Kernel
import proofs.«424701_j75024488726867_1_alg».proof.Proof.Gen.Kernel.Skeleton
import proofs.«424701_j75024488726867_1_alg».proof.Proof.Gen.Kernel.Launch
import proofs.«424701_j75024488726867_1_alg».proof.Proof.Gen.Kernel.Points
import proofs.«424701_j75024488726867_1_alg».proof.Proof.Gen.Kernel.Frame
import proofs.«424701_j75024488726867_1_alg».proof.Proof.Gen.KernelIdeal
import proofs.«424701_j75024488726867_1_alg».proof.Proof.Gen.KernelIdeal.Skeleton
import proofs.«424701_j75024488726867_1_alg».proof.Proof.Gen.KernelIdeal.Launch
import proofs.«424701_j75024488726867_1_alg».proof.Proof.Gen.KernelIdeal.Points
import proofs.«424701_j75024488726867_1_alg».proof.Proof.Gen.KernelIdeal.Frame
import proofs.«424701_j75024488726867_1_alg».proof.Proof.Gen.ReferenceIdeal
import proofs.«424701_j75024488726867_1_alg».proof.Proof.Gen.Pre_finite_inputs
import proofs.«424701_j75024488726867_1_alg».proof.Proof.Gen.ReferenceIdeal.Run
import proofs.«424701_j75024488726867_1_alg».proof.Proof.Gen.ReferenceIdeal.Read
import proofs.«424701_j75024488726867_1_alg».proof.Proof.KernelRun
import proofs.«424701_j75024488726867_1_alg».proof.Proof.PreRange
import proofs.«424701_j75024488726867_1_alg».proof.Proof.Chain
import proofs.«424701_j75024488726867_1_alg».proof.Proof.RefLayer
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network function of the inputs in their result: the kernel by the walk through its
    regions under the range of the source nodes, the reference by its composed term. -/
theorem algebraic : Cert.algebraic_KernelIdeal_ReferenceIdeal := by
  intro m ρ m' ρ' hpre hagree
  refine ⟨fun c => Cert.KernelIdeal.Layer.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Result.run_result (F := Ideal) m ρ)
    obtain ⟨hlo, hhi⟩ := Cert.KernelIdeal.PreRange.src_range m hpre c
    exact Cert.KernelIdeal.Chain.result m ρ c hlo hhi
  · refine (θ_run Cert.ReferenceIdeal.defs _ _).mono (fun r h c => ⟨(h c).1.trans ?_, (h c).2⟩)
      (Cert.ReferenceIdeal.Value.run (F := Ideal) m' ρ')
    rw [Cert.ReferenceIdeal.Layers.result_eq m' c, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
